-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x32000000 : Shape := ⟨2, ![2, 32000000]⟩
abbrev S1x4 : Shape := ⟨2, ![1, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S_ : Shape := ⟨0, ![]⟩
abbrev S1x32000000 : Shape := ⟨2, ![1, 32000000]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_
  slices_S2x32000000_S1x32000000_0_0 : S2x32000000.Slices ![0, 0] S1x32000000
  bcast_S_S1x32000000 : S_.BroadcastsInDim S1x32000000 (![] : Fin 0 → Fin S1x32000000.rank)
  reducesTo_S1x32000000_S_d0_1 : S1x32000000.ReducesTo [0, 1] S_

variable [Facts]

def fn_part2 {F : FTy → Type} [FloatOps F] (main_arg1 : IVec S2x32000000 32) (main_v33 : IVec S_ 1) : IVec S_ 1 :=
  let main_v34 : IVec S1x32000000 32 := (extractStridedSlice S1x32000000 ![0, 0] · slices_S2x32000000_S1x32000000_0_0) main_arg1
  let main_c_12 : IVec S_ 32 := constantI S_ 32 1000000#32
  let main_v35 : IVec S1x32000000 32 := broadcastInDim S1x32000000 ![] bcast_S_S1x32000000 main_c_12
  let main_v36 : IVec S1x32000000 1 := cmpi .slt main_v34 main_v35
  let main_c_13 : IVec S_ 1 := constantI S_ 1 1#1
  let main_v37 : IVec S_ 1 := (fun x v => Host.reduce IntOp.andi x v reducesTo_S1x32000000_S_d0_1 h_S_) main_v36 main_c_13
  let main_v38 : IVec S_ 1 := andi main_v33 main_v37
  main_v38

def fn_part1 {F : FTy → Type} [FloatOps F] (main_arg1 : IVec S2x32000000 32) (main_arg5 : FVec F S1 .f32) (main_arg6 : FVec F S1x1 .f32) (main_v13 : IVec S_ 1) (main_v16 : IVec S4x1 1) : IVec S_ 1 :=
  let main_c_5 : IVec S_ 1 := constantI S_ 1 1#1
  let main_v17 : IVec S_ 1 := (fun x v => Host.reduce IntOp.andi x v reducesTo_S4x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x1 .f32 := Host.absf main_arg6
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : IVec S1x32000000 32 := (extractStridedSlice S1x32000000 ![0, 0] · slices_S2x32000000_S1x32000000_0_0) main_arg1
  let main_c_10 : IVec S_ 32 := constantI S_ 32 0#32
  let main_v30 : IVec S1x32000000 32 := broadcastInDim S1x32000000 ![] bcast_S_S1x32000000 main_c_10
  let main_v31 : IVec S1x32000000 1 := cmpi .sge main_v29 main_v30
  let main_c_11 : IVec S_ 1 := constantI S_ 1 1#1
  let main_v32 : IVec S_ 1 := (fun x v => Host.reduce IntOp.andi x v reducesTo_S1x32000000_S_d0_1 h_S_) main_v31 main_c_11
  let main_v33 : IVec S_ 1 := andi main_v28 main_v32
  fn_part2 (F := F) main_arg1 main_v33

def fn {F : FTy → Type} [FloatOps F] (main_arg0 : FVec F S1000000x1 .f32) (main_arg1 : IVec S2x32000000 32) (main_arg2 : FVec F S1x4 .f32) (main_arg3 : FVec F S4 .f32) (main_arg4 : FVec F S4x1 .f32) (main_arg5 : FVec F S1 .f32) (main_arg6 : FVec F S1x1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1x4 .f32 := Host.absf main_arg2
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x1 .f32 := Host.absf main_arg4
  let main_cst_4 : FVec F S_ .f32 := constant S_ .f32 0x7F800000#32
  let main_v15 : FVec F S4x1 .f32 := broadcastInDim S4x1 ![] bcast_S_S4x1 main_cst_4
  let main_v16 : IVec S4x1 1 := cmpf .olt main_v14 main_v15
  fn_part1 (F := F) main_arg1 main_arg5 main_arg6 main_v13 main_v16
-- ==== Kernel.lean ====
abbrev S1000000x1 : Shape := ⟨2, ![1000000, 1]⟩
abbrev S2x32000000 : Shape := ⟨2, ![2, 32000000]⟩
abbrev S1x4 : Shape := ⟨2, ![1, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S1000000 : Shape := ⟨1, ![1000000]⟩
abbrev S_ : Shape := ⟨0, ![]⟩
abbrev S1048576 : Shape := ⟨1, ![1048576]⟩
abbrev S8192x128 : Shape := ⟨2, ![8192, 128]⟩
abbrev S1024x128 : Shape := ⟨2, ![1024, 128]⟩
abbrev S1x32000000 : Shape := ⟨2, ![1, 32000000]⟩
abbrev S32000000 : Shape := ⟨1, ![32000000]⟩
abbrev S32000000x1 : Shape := ⟨2, ![32000000, 1]⟩

abbrev nBuf : Space → Nat
  | .hbm => 56
  | .vmem => 15
  | .smem => 0
  | _ => 0

abbrev bufTy : (tb : Table) → Fin (tcTables nBuf tb) → BufTy
  | .hbm, ⟨0, _⟩ => ⟨S1000000x1, .f32⟩
  | .hbm, ⟨1, _⟩ => ⟨S2x32000000, .i32⟩
  | .hbm, ⟨2, _⟩ => ⟨S1x4, .f32⟩
  | .hbm, ⟨3, _⟩ => ⟨S4, .f32⟩
  | .hbm, ⟨4, _⟩ => ⟨S4x1, .f32⟩
  | .hbm, ⟨5, _⟩ => ⟨S1, .f32⟩
  | .hbm, ⟨6, _⟩ => ⟨S1x1, .f32⟩
  | .hbm, ⟨7, _⟩ => ⟨S1000000, .f32⟩
  | .hbm, ⟨8, _⟩ => ⟨S_, .i32⟩
  | .hbm, ⟨9, _⟩ => ⟨S_, .f32⟩
  | .hbm, ⟨10, _⟩ => ⟨S1048576, .f32⟩
  | .hbm, ⟨11, _⟩ => ⟨S8192x128, .f32⟩
  | .hbm, ⟨12, _⟩ => ⟨S8192x128, .f32⟩
  | .hbm, ⟨13, _⟩ => ⟨S1048576, .f32⟩
  | .hbm, ⟨14, _⟩ => ⟨S1x32000000, .i32⟩
  | .hbm, ⟨15, _⟩ => ⟨S32000000, .i32⟩
  | .hbm, ⟨16, _⟩ => ⟨S1x32000000, .i32⟩
  | .hbm, ⟨17, _⟩ => ⟨S32000000, .i32⟩
  | .hbm, ⟨18, _⟩ => ⟨S_, .i32⟩
  | .hbm, ⟨19, _⟩ => ⟨S32000000, .i32⟩
  | .hbm, ⟨20, _⟩ => ⟨S32000000, .i1⟩
  | .hbm, ⟨21, _⟩ => ⟨S_, .i32⟩
  | .hbm, ⟨22, _⟩ => ⟨S32000000, .i32⟩
  | .hbm, ⟨23, _⟩ => ⟨S32000000, .i32⟩
  | .hbm, ⟨24, _⟩ => ⟨S32000000, .i32⟩
  | .hbm, ⟨25, _⟩ => ⟨S32000000x1, .i32⟩
  | .hbm, ⟨26, _⟩ => ⟨S1, .i32⟩
  | .hbm, ⟨27, _⟩ => ⟨S_, .i32⟩
  | .hbm, ⟨28, _⟩ => ⟨S32000000x1, .i32⟩
  | .hbm, ⟨29, _⟩ => ⟨S32000000x1, .i1⟩
  | .hbm, ⟨30, _⟩ => ⟨S1x1, .i32⟩
  | .hbm, ⟨31, _⟩ => ⟨S32000000x1, .i32⟩
  | .hbm, ⟨32, _⟩ => ⟨S32000000x1, .i1⟩
  | .hbm, ⟨33, _⟩ => ⟨S32000000x1, .i1⟩
  | .hbm, ⟨34, _⟩ => ⟨S_, .i1⟩
  | .hbm, ⟨35, _⟩ => ⟨S32000000, .i1⟩
  | .hbm, ⟨36, _⟩ => ⟨S32000000, .f32⟩
  | .hbm, ⟨37, _⟩ => ⟨S_, .f32⟩
  | .hbm, ⟨38, _⟩ => ⟨S32000000, .f32⟩
  | .hbm, ⟨39, _⟩ => ⟨S32000000, .f32⟩
  | .hbm, ⟨40, _⟩ => ⟨S_, .f32⟩
  | .hbm, ⟨41, _⟩ => ⟨S1048576, .f32⟩
  | .hbm, ⟨42, _⟩ => ⟨S32000000x1, .i32⟩
  | .hbm, ⟨43, _⟩ => ⟨S1048576, .f32⟩
  | .hbm, ⟨44, _⟩ => ⟨S_, .f32⟩
  | .hbm, ⟨45, _⟩ => ⟨S32000000, .f32⟩
  | .hbm, ⟨46, _⟩ => ⟨S_, .f32⟩
  | .hbm, ⟨47, _⟩ => ⟨S1048576, .f32⟩
  | .hbm, ⟨48, _⟩ => ⟨S32000000x1, .i32⟩
  | .hbm, ⟨49, _⟩ => ⟨S1048576, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S1048576, .f32⟩
  | .hbm, ⟨54, _⟩ => ⟨S1000000, .f32⟩
  | .hbm, ⟨55, _⟩ => ⟨S1000000x1, .f32⟩
  | .local _ .vmem, ⟨0, _⟩ => ⟨S1024x128, .f32⟩
  | .local _ .vmem, ⟨1, _⟩ => ⟨S1024x128, .f32⟩
  | .local _ .vmem, ⟨2, _⟩ => ⟨S1x4, .f32⟩
  | .local _ .vmem, ⟨3, _⟩ => ⟨S4, .f32⟩
  | .local _ .vmem, ⟨4, _⟩ => ⟨S4x1, .f32⟩
  | .local _ .vmem, ⟨5, _⟩ => ⟨S1, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1, .f32⟩
  | .local _ .vmem, ⟨13, _⟩ => ⟨S1024x128, .f32⟩
  | .local _ .vmem, ⟨14, _⟩ => ⟨S1024x128, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_0 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1000000x1_S1000000 : S1000000x1.ShapeCasts S1000000
  pads_S1000000_S1048576_0485760 : S1000000.Pads (![0] : Fin 1 → Nat) ![48576] ![0] S1048576
  h_S_ : 0 < S_.numel
  shapeCasts_S1048576_S8192x128 : S1048576.ShapeCasts S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x4_S1x4_0_0 : ∀ a, (![0, 0] : Fin 2 → Nat) a + S1x4.size a ≤ S1x4.size a
  h_S1x4 : 0 < S1x4.numel
  inb_S4_S4_0 : ∀ a, (![0] : Fin 1 → Nat) a + S4.size a ≤ S4.size a
  h_S4 : 0 < S4.numel
  inb_S4x1_S4x1_0_0 : ∀ a, (![0, 0] : Fin 2 → Nat) a + S4x1.size a ≤ S4x1.size a
  h_S4x1 : 0 < S4x1.numel
  inb_S1_S1_0 : ∀ a, (![0] : Fin 1 → Nat) a + S1.size a ≤ S1.size a
  h_S1 : 0 < S1.numel
  inpos_S1_p0 : ∀ a, (![0] : Fin 1 → Nat) a < S1.size a
  slices_S1x4_o0_0_S1x1 : S1x4.Slices ![0, 0] S1x1
  inpos_S1x1_p0_0 : ∀ a, (![0, 0] : Fin 2 → Nat) a < S1x1.size a
  slices_S4_o0_S1 : S4.Slices ![0] S1
  slices_S4x1_o0_0_S1x1 : S4x1.Slices ![0, 0] S1x1
  slices_S1x4_o0_1_S1x1 : S1x4.Slices ![0, 1] S1x1
  slices_S4_o1_S1 : S4.Slices ![1] S1
  slices_S4x1_o1_0_S1x1 : S4x1.Slices ![1, 0] S1x1
  slices_S1x4_o0_2_S1x1 : S1x4.Slices ![0, 2] S1x1
  slices_S4_o2_S1 : S4.Slices ![2] S1
  slices_S4x1_o2_0_S1x1 : S4x1.Slices ![2, 0] S1x1
  slices_S1x4_o0_3_S1x1 : S1x4.Slices ![0, 3] S1x1
  slices_S4_o3_S1 : S4.Slices ![3] S1
  slices_S4x1_o3_0_S1x1 : S4x1.Slices ![3, 0] S1x1
  iota_S1024x128_d0_w32 : S1024x128.Iotas .tc 32 [0]
  iota_S1024x128_d1_w32 : S1024x128.Iotas .tc 32 [1]
  shapeCasts_S8192x128_S1048576 : S8192x128.ShapeCasts S1048576
  slices_S2x32000000_S1x32000000_0_0 : S2x32000000.Slices ![0, 0] S1x32000000
  shapeCasts_S1x32000000_S32000000 : S1x32000000.ShapeCasts S32000000
  slices_S2x32000000_S1x32000000_1_0 : S2x32000000.Slices ![1, 0] S1x32000000
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S32000000x1 : S_.BroadcastsInDim S32000000x1 (![] : Fin 0 → Fin S32000000x1.rank)
  bcast_S1_S1x1_1 : S1.BroadcastsInDim S1x1 (![1] : Fin 1 → Fin S1x1.rank)
  bcast_S1x1_S32000000x1_0_1 : S1x1.BroadcastsInDim S32000000x1 (![0, 1] : Fin 2 → Fin S32000000x1.rank)
  reducesTo_S32000000x1_S32000000_d1 : S32000000x1.ReducesTo [1] S32000000
  bcast_S_S1048576 : S_.BroadcastsInDim S1048576 (![] : Fin 0 → Fin S1048576.rank)
  inb_S1x1_S1x1_0_0 : ∀ a, (![0, 0] : Fin 2 → Nat) a + S1x1.size a ≤ S1x1.size a
  h_S1x1 : 0 < S1x1.numel
  slices_S1048576_S1000000_0 : S1048576.Slices ![0] S1000000
  shapeCasts_S1000000_S1000000x1 : S1000000.ShapeCasts S1000000x1
  gather_S1048576_S32000000x1_S32000000_n_0_n_n_0_1_1_wf : GatherDims.WF S1048576 S32000000x1 S32000000 [] [0] [] [0] [] 1 ![1]
  scatter_S1048576_S32000000x1_S32000000_n_0_0_1_wf : ScatterDims.WF S1048576 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4.size a ≤ S1x4.size a
  hwx0_1 : ∀ i : grid0.Coords, EltTy.bits .f32 = 32 ∨ (Rect.block (s := S1x4) S1x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1.size a ≤ S4x1.size a
  hwx0_3 : ∀ i : grid0.Coords, EltTy.bits .f32 = 32 ∨ (Rect.block (s := S4x1) S4x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .f32 = 32 ∨ (Rect.block (s := S8192x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)

variable [Facts₀]

def gather_S1048576_S32000000x1_S32000000_n_0_n_n_0_1_1 : GatherDims S1048576 S32000000x1 S32000000 where
  offsetDims := []
  collapsedSliceDims := [0]
  operandBatchingDims := []
  startIndicesBatchingDims := []
  startIndexMap := [0]
  indexVectorDim := 1
  sliceSizes := ![1]
  wf := gather_S1048576_S32000000x1_S32000000_n_0_n_n_0_1_1_wf
def scatter_S1048576_S32000000x1_S32000000_n_0_0_1 : ScatterDims S1048576 S32000000x1 S32000000 where
  updateWindowDims := []
  insertedWindowDims := [0]
  scatterDimsToOperandDims := [0]
  indexVectorDim := 1
  wf := scatter_S1048576_S32000000x1_S32000000_n_0_0_1_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x1 : Shape := ⟨2, ![1000000, 1]⟩
abbrev S2x32000000 : Shape := ⟨2, ![2, 32000000]⟩
abbrev S1x4 : Shape := ⟨2, ![1, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S1000000x4 : Shape := ⟨2, ![1000000, 4]⟩
abbrev S_ : Shape := ⟨0, ![]⟩
abbrev S1x32000000 : Shape := ⟨2, ![1, 32000000]⟩
abbrev S32000000 : Shape := ⟨1, ![32000000]⟩
abbrev S32000000x1 : Shape := ⟨2, ![32000000, 1]⟩

abbrev nBuf : Space → Nat
  | .hbm => 60
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S2x32000000, .i32⟩
  | .hbm, ⟨2, _⟩ => ⟨S1x4, .f32⟩
  | .hbm, ⟨3, _⟩ => ⟨S4, .f32⟩
  | .hbm, ⟨4, _⟩ => ⟨S4x1, .f32⟩
  | .hbm, ⟨5, _⟩ => ⟨S1, .f32⟩
  | .hbm, ⟨6, _⟩ => ⟨S1x1, .f32⟩
  | .hbm, ⟨7, _⟩ => ⟨S1000000x4, .f32⟩
  | .hbm, ⟨8, _⟩ => ⟨S1x4, .f32⟩
  | .hbm, ⟨9, _⟩ => ⟨S1000000x4, .f32⟩
  | .hbm, ⟨10, _⟩ => ⟨S1000000x4, .f32⟩
  | .hbm, ⟨11, _⟩ => ⟨S_, .f32⟩
  | .hbm, ⟨12, _⟩ => ⟨S1000000x4, .f32⟩
  | .hbm, ⟨13, _⟩ => ⟨S1000000x4, .f32⟩
  | .hbm, ⟨14, _⟩ => ⟨S1000000x1, .f32⟩
  | .hbm, ⟨15, _⟩ => ⟨S1x1, .f32⟩
  | .hbm, ⟨16, _⟩ => ⟨S1000000x1, .f32⟩
  | .hbm, ⟨17, _⟩ => ⟨S1000000x1, .f32⟩
  | .hbm, ⟨18, _⟩ => ⟨S1x32000000, .i32⟩
  | .hbm, ⟨19, _⟩ => ⟨S32000000, .i32⟩
  | .hbm, ⟨20, _⟩ => ⟨S1x32000000, .i32⟩
  | .hbm, ⟨21, _⟩ => ⟨S32000000, .i32⟩
  | .hbm, ⟨22, _⟩ => ⟨S_, .i32⟩
  | .hbm, ⟨23, _⟩ => ⟨S32000000, .i32⟩
  | .hbm, ⟨24, _⟩ => ⟨S32000000, .i1⟩
  | .hbm, ⟨25, _⟩ => ⟨S_, .i32⟩
  | .hbm, ⟨26, _⟩ => ⟨S32000000, .i32⟩
  | .hbm, ⟨27, _⟩ => ⟨S32000000, .i32⟩
  | .hbm, ⟨28, _⟩ => ⟨S32000000, .i32⟩
  | .hbm, ⟨29, _⟩ => ⟨S32000000x1, .i32⟩
  | .hbm, ⟨30, _⟩ => ⟨S1, .i32⟩
  | .hbm, ⟨31, _⟩ => ⟨S_, .i32⟩
  | .hbm, ⟨32, _⟩ => ⟨S32000000x1, .i32⟩
  | .hbm, ⟨33, _⟩ => ⟨S32000000x1, .i1⟩
  | .hbm, ⟨34, _⟩ => ⟨S1x1, .i32⟩
  | .hbm, ⟨35, _⟩ => ⟨S32000000x1, .i32⟩
  | .hbm, ⟨36, _⟩ => ⟨S32000000x1, .i1⟩
  | .hbm, ⟨37, _⟩ => ⟨S32000000x1, .i1⟩
  | .hbm, ⟨38, _⟩ => ⟨S_, .i1⟩
  | .hbm, ⟨39, _⟩ => ⟨S32000000, .i1⟩
  | .hbm, ⟨40, _⟩ => ⟨S32000000x1, .f32⟩
  | .hbm, ⟨41, _⟩ => ⟨S32000000x1, .i1⟩
  | .hbm, ⟨42, _⟩ => ⟨S_, .f32⟩
  | .hbm, ⟨43, _⟩ => ⟨S32000000x1, .f32⟩
  | .hbm, ⟨44, _⟩ => ⟨S32000000x1, .f32⟩
  | .hbm, ⟨45, _⟩ => ⟨S_, .f32⟩
  | .hbm, ⟨46, _⟩ => ⟨S1000000x1, .f32⟩
  | .hbm, ⟨47, _⟩ => ⟨S32000000x1, .i32⟩
  | .hbm, ⟨48, _⟩ => ⟨S1000000x1, .f32⟩
  | .hbm, ⟨49, _⟩ => ⟨S_, .f32⟩
  | .hbm, ⟨50, _⟩ => ⟨S32000000x1, .f32⟩
  | .hbm, ⟨51, _⟩ => ⟨S_, .f32⟩
  | .hbm, ⟨52, _⟩ => ⟨S1000000x1, .f32⟩
  | .hbm, ⟨53, _⟩ => ⟨S32000000x1, .i32⟩
  | .hbm, ⟨54, _⟩ => ⟨S1000000x1, .f32⟩
  | .hbm, ⟨55, _⟩ => ⟨S_, .f32⟩
  | .hbm, ⟨56, _⟩ => ⟨S1000000x1, .f32⟩
  | .hbm, ⟨57, _⟩ => ⟨S1000000x1, .f32⟩
  | .hbm, ⟨58, _⟩ => ⟨S1000000x1, .f32⟩
  | .hbm, ⟨59, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_call1_cst : Ref sig .tc := ⟨.hbm, 42, rfl⟩
abbrev main_call1_v15 : Ref sig .tc := ⟨.hbm, 43, rfl⟩
abbrev main_v13 : Ref sig .tc := ⟨.hbm, 44, rfl⟩
abbrev main_cst : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_0 : Ref sig .tc := ⟨.hbm, 49, rfl⟩
abbrev main_v17 : Ref sig .tc := ⟨.hbm, 50, rfl⟩
abbrev main_cst_1 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S_S1000000x4 : S_.BroadcastsInDim S1000000x4 (![] : Fin 0 → Fin S1000000x4.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  slices_S2x32000000_S1x32000000_0_0 : S2x32000000.Slices ![0, 0] S1x32000000
  shapeCasts_S1x32000000_S32000000 : S1x32000000.ShapeCasts S32000000
  slices_S2x32000000_S1x32000000_1_0 : S2x32000000.Slices ![1, 0] S1x32000000
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S32000000x1 : S_.BroadcastsInDim S32000000x1 (![] : Fin 0 → Fin S32000000x1.rank)
  bcast_S1x1_S32000000x1_0_1 : S1x1.BroadcastsInDim S32000000x1 (![0, 1] : Fin 2 → Fin S32000000x1.rank)
  reducesTo_S32000000x1_S32000000_d1 : S32000000x1.ReducesTo [1] S32000000
  h_S_ : 0 < S_.numel
  bcast_S_S1000000x1 : S_.BroadcastsInDim S1000000x1 (![] : Fin 0 → Fin S1000000x1.rank)
  dot_S1000000x1_S1x4_S1000000x4_1_0_0_1_n_n_wf : DotDims.WF S1000000x1 S1x4 S1000000x4 [1] [0] [0] [1] [] []
  dot_S1000000x4_S4x1_S1000000x1_1_0_0_1_n_n_wf : DotDims.WF S1000000x4 S4x1 S1000000x1 [1] [0] [0] [1] [] []
  gather_S1000000x1_S32000000x1_S32000000x1_1_0_n_n_0_1_11_wf : GatherDims.WF S1000000x1 S32000000x1 S32000000x1 [1] [0] [] [0] [] 1 ![1, 1]
  scatter_S1000000x1_S32000000x1_S32000000x1_1_0_0_1_wf : ScatterDims.WF S1000000x1 S32000000x1 S32000000x1 [1] [0] [0] 1
  dot_S1000000x1_S1x1_S1000000x1_1_0_0_1_n_n_wf : DotDims.WF S1000000x1 S1x1 S1000000x1 [1] [0] [0] [1] [] []

variable [Facts₀]

def dot_S1000000x1_S1x4_S1000000x4_1_0_0_1_n_n : DotDims S1000000x1 S1x4 S1000000x4 where
  lhsContracting := [1]
  rhsContracting := [0]
  lhsNonContracting := [0]
  rhsNonContracting := [1]
  lhsBatch := []
  rhsBatch := []
  wf := dot_S1000000x1_S1x4_S1000000x4_1_0_0_1_n_n_wf
def dot_S1000000x4_S4x1_S1000000x1_1_0_0_1_n_n : DotDims S1000000x4 S4x1 S1000000x1 where
  lhsContracting := [1]
  rhsContracting := [0]
  lhsNonContracting := [0]
  rhsNonContracting := [1]
  lhsBatch := []
  rhsBatch := []
  wf := dot_S1000000x4_S4x1_S1000000x1_1_0_0_1_n_n_wf
def gather_S1000000x1_S32000000x1_S32000000x1_1_0_n_n_0_1_11 : GatherDims S1000000x1 S32000000x1 S32000000x1 where
  offsetDims := [1]
  collapsedSliceDims := [0]
  operandBatchingDims := []
  startIndicesBatchingDims := []
  startIndexMap := [0]
  indexVectorDim := 1
  sliceSizes := ![1, 1]
  wf := gather_S1000000x1_S32000000x1_S32000000x1_1_0_n_n_0_1_11_wf
def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf
def dot_S1000000x1_S1x1_S1000000x1_1_0_0_1_n_n : DotDims S1000000x1 S1x1 S1000000x1 where
  lhsContracting := [1]
  rhsContracting := [0]
  lhsNonContracting := [0]
  rhsNonContracting := [1]
  lhsBatch := []
  rhsBatch := []
  wf := dot_S1000000x1_S1x1_S1000000x1_1_0_0_1_n_n_wf

class Facts : Prop extends Facts₀ where

variable [Facts]
-- ==== Proof.KerRegionTerms.lean ====
/-
  What each of the two grids leaves in its output sheet, as one function of the sheets it reads.

  Both grids walk an 8192 × 128 sheet in eight bands of 1024 rows. At band `t` the body computes, entry by entry, a
  function of the same band of its moving inputs and of small constant inputs; the first body also reads the band's
  number (it zeroes the entries whose flat position 128 · row + column is not below the number of nodes). So the
  sheet after the grid is, at row `r`, the body's value of band `r / 1024` at row `r % 1024` of that band.
-/
import proofs.«410370_j6923487281238_3_alg».proof.Proof.Gen.KernelIdeal.Skeleton
import Idealize.ShloMosaic.Lib.ValueIdx

noncomputable section

namespace Cert.KernelIdeal.KerTerms

open Idealize.ShloMosaic Idealize.ShloMosaic.ValueIdx Cert.KernelIdeal Cert.KernelIdeal.Gen

variable {F : FTy → Type} [FloatOps F]

/-- The band of 1024 rows that holds row `(i 0)` of a sheet. -/
def band (a : FVec F S8192x128 .f32) (i : S8192x128.Idx) : FVec F S1024x128 .f32 :=
  fun y => a (ix2 (⟨(i 0).val / 1024 * 1024 + (y 0).val, by
      have h0 : (i 0).val < 8192 := (i 0).isLt
      have h1 : (y 0).val < 1024 := (y 0).isLt
      omega⟩ : Fin 8192) (y 1 : Fin 128))

/-- An index of the sheet inside its band. -/
def inBand (i : S8192x128.Idx) : S1024x128.Idx :=
  ix2 (⟨(i 0).val % 1024, Nat.mod_lt _ (by decide)⟩ : Fin 1024) (i 1 : Fin 128)

/-- The first grid's output sheet: the perceptron of the input sheet, entry by entry, zeroed past the nodes. -/
def hArr (x2d : FVec F S8192x128 .f32) (w1 : FVec F S1x4 .f32) (b1 : FVec F S4 .f32) (w2 : FVec F S4x1 .f32)
    (b2 : FVec F S1 .f32) : FVec F S8192x128 .f32 :=
  fun i => k0_pay1 (BitVec.ofNat 32 ((i 0).val / 1024)) (k0_pay2 (band x2d i)) w1 b1 w2
    (k0_pay3 (band x2d i) w1 b1 w2 b2) (k0_pay4 (band x2d i) w1 b1) (inBand i)

/-- The second grid's output sheet: sum over the larger of count and one, times the weight, entry by entry. -/
def outArr (s2d c2d : FVec F S8192x128 .f32) (ws : FVec F S1x1 .f32) : FVec F S8192x128 .f32 :=
  fun i => k1_pay1 (band s2d i) (band c2d i) ws (inBand i)

end Cert.KernelIdeal.KerTerms

end
-- ==== Proof.KerRegions.lean ====
/-
  Each grid's output sheet after its run: the bands its points write back are the bands of one function of the sheets
  it reads, and the eight bands cover the sheet.
-/
import proofs.«410370_j6923487281238_3_alg».proof.Proof.FrameKernelIdeal
import proofs.«410370_j6923487281238_3_alg».proof.Proof.KerRegionTerms
import Idealize.ShloMosaic.Lib.Pipeline.Value

set_option maxRecDepth 16384

noncomputable section

namespace Cert.KernelIdeal.KerRegions

open Idealize.ShloMosaic Idealize.ShloMosaic.TcCoe Idealize.ShloMosaic.ValueIdx
open Cert.KernelIdeal Cert.KernelIdeal.Gen Cert.KernelIdeal.GenP Cert.KernelIdeal.KerTerms
open Idealize.ShloMosaic.Pipeline (Dat Cfg Window)

variable {F : FTy → Type} [FloatOps F]
variable (V : (c : Dev nD) → (b : Ref sig .tc) → Buf (Elt F) ((c : Thread nD τ).loc b))

/-! ## The first grid -/

/-- The first body's value at an entry of a band is the sheet function at the entry's place in the sheet. -/
theorem hArr_at (x2d : FVec F S8192x128 .f32) (w1 : FVec F S1x4 .f32) (b1 : FVec F S4 .f32) (w2 : FVec F S4x1 .f32) (b2 : FVec F S1 .f32)
    (n : Nat) (x0 : FVec F S1024x128 .f32) (x1 : FVec F S1x4 .f32) (x2 : FVec F S4 .f32) (x3 : FVec F S4x1 .f32) (x4 : FVec F S1 .f32)
    (i : S8192x128.Idx) (j : S1024x128.Idx)
    (h0 : x0 = band x2d i) (h1 : x1 = w1) (h2 : x2 = b1) (h3 : x3 = w2) (h4 : x4 = b2) (hn : n = (i 0).val / 1024) (hj : j = inBand i) :
    k0_pay1 (BitVec.ofNat 32 n) (k0_pay2 x0) x1 x2 x3 (k0_pay3 x0 x1 x2 x3 x4) (k0_pay4 x0 x1 x2) j = hArr x2d w1 b1 w2 b2 i := by
  subst h0 h1 h2 h3 h4 hn hj; rfl

/-- The zero offsets of a rank-2 rectangle, as the constant function. -/
theorem zeros2 : (![0, 0] : Fin 2 → Nat) = fun _ => 0 := funext fun a => by fin_cases a <;> rfl
/-- The zero offsets of a rank-1 rectangle, as the constant function. -/
theorem zeros1 : (![0] : Fin 1 → Nat) = fun _ => 0 := funext fun a => by fin_cases a; rfl

/-- The first grid's printed index maps at each of its eight points: the moving sheets' band index is the point, the
    small inputs' block index is zero, and the band number the body reads is the point. -/
theorem maps0 : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ ((grid0.coords t) 0).val = t.val :=
  (by decide +kernel : ∀ t : Fin grid0.N, _)

/-- What point `t` of the first grid writes back is band `t` of `hArr` of the sheets as the grid finds them: the body's
    value there is the same function of the same arguments — the input band read where the output's band lies, the
    small inputs whole, the band number `row / 1024`, and the entry's place inside the band. -/
theorem band_written0 (c : Dev nD) (t : Fin cfg0.N) :
    (dat0 V c).flushed 5 t = ((cfg0.win 5).blk t).view.read (Elt F) (hArr (V c main_v2) (V c main_arg2) (V c main_arg3) (V c main_arg4) (V c main_arg5)) := by
  show (cfg0.win 5).cut (grid0.coords t) ((dat0 V c).after 5 t) = _
  rw [after0_5]
  unfold out0_5
  rw [View.canon_unit_zero zeros2]
  simp only [View.ld_unit_zero (S := S1024x128) zeros2, View.ld_unit_zero (S := S1x4) zeros2, View.ld_unit_zero (S := S4x1) zeros2, View.ld_unit_zero (S := S4) zeros1, View.ld_unit_zero (S := S1) zeros1]
  funext j
  obtain ⟨e00, e01, e50, e51, e10, e11, e20, e30, e31, e40, eg⟩ := maps0 t
  have hj0 : (j 0).val < 1024 := (j 0).isLt
  refine hArr_at (V c main_v2) (V c main_arg2) (V c main_arg3) (V c main_arg4) (V c main_arg5) ((grid0.coords t) 0).val (iblk0 V c 0 t) (iblk0 V c 1 t) (iblk0 V c 2 t) (iblk0 V c 3 t) (iblk0 V c 4 t) (((cfg0.win 5).blk t).view.emb j) j ?_ ?_ ?_ ?_ ?_ ?_ ?_
  · funext y
    show V c main_v2 (((cfg0.win 0).blk t).view.emb y) = V c main_v2 _
    refine congrArg (V c main_v2) ?_
    funext a; apply Fin.ext
    match a with
    | ⟨0, _⟩ =>
      show win0_0.index t (0 : Fin 2) * 1024 + 1 * (y 0).val = (win0_5.index t (0 : Fin 2) * 1024 + 1 * (j 0).val) / 1024 * 1024 + (y 0).val
      omega
    | ⟨1, _⟩ =>
      show win0_0.index t (1 : Fin 2) * 128 + 1 * (y 1).val = (y 1).val
      omega
  · funext y
    show V c main_arg2 (((cfg0.win 1).blk t).view.emb y) = V c main_arg2 y
    refine congrArg (V c main_arg2) ?_
    funext a; apply Fin.ext
    match a with
    | ⟨0, _⟩ => show win0_1.index t (0 : Fin 2) * 1 + 1 * (y 0).val = (y 0).val; omega
    | ⟨1, _⟩ => show win0_1.index t (1 : Fin 2) * 4 + 1 * (y 1).val = (y 1).val; omega
  · funext y
    show V c main_arg3 (((cfg0.win 2).blk t).view.emb y) = V c main_arg3 y
    refine congrArg (V c main_arg3) ?_
    funext a; apply Fin.ext
    match a with
    | ⟨0, _⟩ => show win0_2.index t (0 : Fin 1) * 4 + 1 * (y 0).val = (y 0).val; omega
  · funext y
    show V c main_arg4 (((cfg0.win 3).blk t).view.emb y) = V c main_arg4 y
    refine congrArg (V c main_arg4) ?_
    funext a; apply Fin.ext
    match a with
    | ⟨0, _⟩ => show win0_3.index t (0 : Fin 2) * 4 + 1 * (y 0).val = (y 0).val; omega
    | ⟨1, _⟩ => show win0_3.index t (1 : Fin 2) * 1 + 1 * (y 1).val = (y 1).val; omega
  · funext y
    show V c main_arg5 (((cfg0.win 4).blk t).view.emb y) = V c main_arg5 y
    refine congrArg (V c main_arg5) ?_
    funext a; apply Fin.ext
    match a with
    | ⟨0, _⟩ => show win0_4.index t (0 : Fin 1) * 1 + 1 * (y 0).val = (y 0).val; omega
  · show ((grid0.coords t) 0).val = (win0_5.index t (0 : Fin 2) * 1024 + 1 * (j 0).val) / 1024
    omega
  · funext a; apply Fin.ext
    match a with
    | ⟨0, _⟩ => show (j 0).val = (win0_5.index t (0 : Fin 2) * 1024 + 1 * (j 0).val) % 1024; omega
    | ⟨1, _⟩ => show (j 1).val = win0_5.index t (1 : Fin 2) * 128 + 1 * (j 1).val; omega

/-- An index of the sheet is in point `t`'s band iff each coordinate is in the band's range on its axis. -/
theorem mem_band0 (t : Fin cfg0.N) (i : S8192x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v3).slice (win0_5.rect t)).set ↔ _
  rw [View.set_slice_whole, Rect.mem_set_unit]
  exact Iff.rfl

/-- Row `r` of the sheet lies in the band of point `r / 1024`, and every point writes its band back. -/
theorem bands_cover0 (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨e00, e01, e50, e51, e10, e11, e20, e30, e31, e40, eg⟩ := maps0 t
  refine ⟨t, flush0_5 t, ?_⟩
  rw [mem_band0]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 128 ≤ (i 1).val ∧ (i 1).val < win0_5.index t (1 : Fin 2) * 128 + 128
    omega

/-- After the first grid its output sheet is `hArr` of the sheets it read. -/
theorem final0 (c : Dev nD) :
    (dat0 V c).arrAt 5 cfg0.N = hArr (V c main_v2) (V c main_arg2) (V c main_arg3) (V c main_arg4) (V c main_arg5) :=
  (dat0 V c).arrAt_eq_of_cover 5 (hArr (V c main_v2) (V c main_arg2) (V c main_arg3) (V c main_arg4) (V c main_arg5))
    (fun t _ => band_written0 V c t) bands_cover0

/-! ## The second grid -/

/-- The second grid's printed index maps at each of its eight points: the moving sheets' band index is the point, the
    small input's block index is zero. -/
theorem maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The second body's value at an entry of a band is the sheet function at the entry's place in the sheet. -/
theorem outArr_at (s2d c2d : FVec F S8192x128 .f32) (ws : FVec F S1x1 .f32)
    (x0 x1 : FVec F S1024x128 .f32) (x2 : FVec F S1x1 .f32) (i : S8192x128.Idx) (j : S1024x128.Idx)
    (h0 : x0 = band s2d i) (h1 : x1 = band c2d i) (h2 : x2 = ws) (hj : j = inBand i) :
    k1_pay1 x0 x1 x2 j = outArr s2d c2d ws i := by
  subst h0 h1 h2 hj; rfl

/-- What point `t` of the second grid writes back is band `t` of `outArr` of the sheets as the grid finds them. -/
theorem band_written1 (c : Dev nD) (t : Fin cfg1.N) :
    (dat1 V c).flushed 3 t = ((cfg1.win 3).blk t).view.read (Elt F) (outArr (V c main_v17) (V c main_v18) (V c main_arg6)) := by
  show (cfg1.win 3).cut (grid1.coords t) ((dat1 V c).after 3 t) = _
  rw [after1_3]
  unfold out1_3
  rw [View.canon_unit_zero zeros2]
  simp only [View.ld_unit_zero (S := S1024x128) zeros2, View.ld_unit_zero (S := S1x1) zeros2]
  funext j
  obtain ⟨e00, e01, e10, e11, e20, e21, e30, e31⟩ := maps1 t
  have hj0 : (j 0).val < 1024 := (j 0).isLt
  refine outArr_at (V c main_v17) (V c main_v18) (V c main_arg6) (iblk1 V c 0 t) (iblk1 V c 1 t) (iblk1 V c 2 t) (((cfg1.win 3).blk t).view.emb j) j ?_ ?_ ?_ ?_
  · funext y
    show V c main_v17 (((cfg1.win 0).blk t).view.emb y) = V c main_v17 _
    refine congrArg (V c main_v17) ?_
    funext a; apply Fin.ext
    match a with
    | ⟨0, _⟩ =>
      show win1_0.index t (0 : Fin 2) * 1024 + 1 * (y 0).val = (win1_3.index t (0 : Fin 2) * 1024 + 1 * (j 0).val) / 1024 * 1024 + (y 0).val
      omega
    | ⟨1, _⟩ =>
      show win1_0.index t (1 : Fin 2) * 128 + 1 * (y 1).val = (y 1).val
      omega
  · funext y
    show V c main_v18 (((cfg1.win 1).blk t).view.emb y) = V c main_v18 _
    refine congrArg (V c main_v18) ?_
    funext a; apply Fin.ext
    match a with
    | ⟨0, _⟩ =>
      show win1_1.index t (0 : Fin 2) * 1024 + 1 * (y 0).val = (win1_3.index t (0 : Fin 2) * 1024 + 1 * (j 0).val) / 1024 * 1024 + (y 0).val
      omega
    | ⟨1, _⟩ =>
      show win1_1.index t (1 : Fin 2) * 128 + 1 * (y 1).val = (y 1).val
      omega
  · funext y
    show V c main_arg6 (((cfg1.win 2).blk t).view.emb y) = V c main_arg6 y
    refine congrArg (V c main_arg6) ?_
    funext a; apply Fin.ext
    match a with
    | ⟨0, _⟩ => show win1_2.index t (0 : Fin 2) * 1 + 1 * (y 0).val = (y 0).val; omega
    | ⟨1, _⟩ => show win1_2.index t (1 : Fin 2) * 1 + 1 * (y 1).val = (y 1).val; omega
  · funext a; apply Fin.ext
    match a with
    | ⟨0, _⟩ => show (j 0).val = (win1_3.index t (0 : Fin 2) * 1024 + 1 * (j 0).val) % 1024; omega
    | ⟨1, _⟩ => show (j 1).val = win1_3.index t (1 : Fin 2) * 128 + 1 * (j 1).val; omega

/-- An index of the sheet is in point `t`'s band iff each coordinate is in the band's range on its axis. -/
theorem mem_band1 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v19).slice (win1_3.rect t)).set ↔ _
  rw [View.set_slice_whole, Rect.mem_set_unit]
  exact Iff.rfl

/-- Row `r` of the sheet lies in the band of point `r / 1024`, and every point writes its band back. -/
theorem bands_cover1 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  have hN : cfg1.N = 8 := N_1
  obtain ⟨t, ht⟩ : ∃ t : Fin cfg1.N, t.val = (i 0).val / 1024 := ⟨⟨(i 0).val / 1024, by rw [hN]; omega⟩, rfl⟩
  obtain ⟨e00, e01, e10, e11, e20, e21, e30, e31⟩ := maps1 t
  refine ⟨t, flush1_3 t, ?_⟩
  rw [mem_band1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 128 ≤ (i 1).val ∧ (i 1).val < win1_3.index t (1 : Fin 2) * 128 + 128
    omega

/-- After the second grid its output sheet is `outArr` of the sheets it read. -/
theorem final1 (c : Dev nD) :
    (dat1 V c).arrAt 3 cfg1.N = outArr (V c main_v17) (V c main_v18) (V c main_arg6) :=
  (dat1 V c).arrAt_eq_of_cover 3 (outArr (V c main_v17) (V c main_v18) (V c main_arg6))
    (fun t _ => band_written1 V c t) bands_cover1

end Cert.KernelIdeal.KerRegions

end
-- ==== Proof.KerTerms.lean ====
/-
  The kernel program's result as one term of its argument arrays: its host operations, in order, with each grid's
  output sheet in the place of its call.
-/
import proofs.«410370_j6923487281238_3_alg».proof.Proof.Gen.KernelIdeal
import proofs.«410370_j6923487281238_3_alg».proof.Proof.KerRegionTerms

noncomputable section

namespace Cert.KernelIdeal.KerTerms

open Idealize.ShloMosaic Idealize.ShloMosaic.ValueIdx Cert.KernelIdeal
open Cert.KernelIdeal.Facts₀ Cert.KernelIdeal.Facts

variable {F : FTy → Type} [FloatOps F]

/-- The inputs laid out as the 8192 × 128 sheet the first grid reads: flattened, padded with zeros to 1048576 entries,
    cut into rows of 128. -/
def xSheet (a0 : FVec F S1000000x1 .f32) : FVec F S8192x128 .f32 :=
  shapeCast S8192x128
    ((fun x v => pad S1048576 ![0] ![48576] ![0] x v pads_S1000000_S1048576_0485760 h_S_)
      (shapeCast S1000000 a0 shapeCasts_S1000000x1_S1000000) (sitofp .f32 (constantI S_ 32 0#32)))
    shapeCasts_S1048576_S8192x128

/-- Row 0 of the edge array as a vector: the sources. -/
def srcVec (a1 : IVec S2x32000000 32) : IVec S32000000 32 :=
  shapeCast S32000000 ((extractStridedSlice S1x32000000 ![0, 0] · slices_S2x32000000_S1x32000000_0_0) a1)
    shapeCasts_S1x32000000_S32000000

/-- Row 1 of the edge array as a vector: the targets. -/
def dstVec (a1 : IVec S2x32000000 32) : IVec S32000000 32 :=
  shapeCast S32000000 ((extractStridedSlice S1x32000000 ![1, 0] · slices_S2x32000000_S1x32000000_1_0) a1)
    shapeCasts_S1x32000000_S32000000

/-- The take of a table of 1048576 entries at a vector of positions, as jnp prints it: a negative position is moved up
    by the table's length, the entry is gathered, and a position still outside the table yields the fill value. -/
def takeK (tbl : FVec F S1048576 .f32) (s : IVec S32000000 32) : FVec F S32000000 .f32 :=
  let v0 : IVec S32000000 32 := broadcastInDim S32000000 ![] bcast_S_S32000000 (constantI S_ 32 0#32)
  let v1 : IVec S32000000 1 := cmpi .slt s v0
  let v2 : IVec S32000000 32 := broadcastInDim S32000000 ![] bcast_S_S32000000 (constantI S_ 32 1048576#32)
  let v3 : IVec S32000000 32 := addi s v2
  let v4 : IVec S32000000 32 := select v1 v3 s
  let v5 : IVec S32000000x1 32 := broadcastInDim S32000000x1 ![0] bcast_S32000000_S32000000x1_0 v4
  let v6 : IVec S32000000x1 32 := broadcastInDim S32000000x1 ![] bcast_S_S32000000x1 (constantI S_ 32 0#32)
  let v7 : IVec S32000000x1 1 := cmpi .sge v5 v6
  let v8 : IVec S1x1 32 := broadcastInDim S1x1 ![1] bcast_S1_S1x1_1 (constantI S1 32 1048575#32)
  let v9 : IVec S32000000x1 32 := broadcastInDim S32000000x1 ![0, 1] bcast_S1x1_S32000000x1_0_1 v8
  let v10 : IVec S32000000x1 1 := cmpi .sle v5 v9
  let v11 : IVec S32000000x1 1 := andi v7 v10
  let v12 : IVec S32000000 1 :=
    (fun x v => Host.reduce IntOp.andi x v reducesTo_S32000000x1_S32000000_d1 h_S_) v11 (constantI S_ 1 1#1)
  let v13 : FVec F S32000000 .f32 :=
    (fun x i => Host.gather gather_S1048576_S32000000x1_S32000000_n_0_n_n_0_1_1 x i) tbl v5
  let v14 : FVec F S32000000 .f32 := broadcastInDim S32000000 ![] bcast_S_S32000000 (constant S_ .f32 0x7FC00000#32)
  select v12 v13 v14

/-- The adding scatter of a vector of updates into 1048576 zeros at the targets. -/
def scatK (d : IVec S32000000 32) (u : FVec F S32000000 .f32) : FVec F S1048576 .f32 :=
  Host.scatterAdd scatter_S1048576_S32000000x1_S32000000_n_0_0_1
    (broadcastInDim S1048576 ![] bcast_S_S1048576 (constant S_ .f32 0x00000000#32))
    (broadcastInDim S32000000x1 ![0] bcast_S32000000_S32000000x1_0 d) u

/-- The kernel program's result. -/
def kerOut (a0 : FVec F S1000000x1 .f32) (a1 : IVec S2x32000000 32) (a2 : FVec F S1x4 .f32) (a3 : FVec F S4 .f32)
    (a4 : FVec F S4x1 .f32) (a5 : FVec F S1 .f32) (a6 : FVec F S1x1 .f32) : FVec F S1000000x1 .f32 :=
  let h2d : FVec F S8192x128 .f32 := hArr (xSheet a0) a2 a3 a4 a5
  let hflat : FVec F S1048576 .f32 := shapeCast S1048576 h2d shapeCasts_S8192x128_S1048576
  let msgs : FVec F S32000000 .f32 := takeK hflat (srcVec a1)
  let summed : FVec F S1048576 .f32 := scatK (dstVec a1) msgs
  let ones : FVec F S32000000 .f32 := broadcastInDim S32000000 ![] bcast_S_S32000000 (constant S_ .f32 0x3F800000#32)
  let cnt : FVec F S1048576 .f32 := scatK (dstVec a1) ones
  let s2d : FVec F S8192x128 .f32 := shapeCast S8192x128 summed shapeCasts_S1048576_S8192x128
  let c2d : FVec F S8192x128 .f32 := shapeCast S8192x128 cnt shapeCasts_S1048576_S8192x128
  let o2d : FVec F S8192x128 .f32 := outArr s2d c2d a6
  let oflat : FVec F S1048576 .f32 := shapeCast S1048576 o2d shapeCasts_S8192x128_S1048576
  let o1 : FVec F S1000000 .f32 := (extractStridedSlice S1000000 ![0] · slices_S1048576_S1000000_0) oflat
  shapeCast S1000000x1 o1 shapeCasts_S1000000_S1000000x1

end Cert.KernelIdeal.KerTerms

end
-- ==== Proof.KerRun.lean ====
/-
  The kernel program's run: every execution ends with the result buffer at the composed term of the arguments.

  The buffers' contents are followed boundary by boundary through the program: the stretch of host operations before
  the first grid builds the input sheet; the first grid leaves `hArr` of it; the stretches between the grids flatten
  that sheet, take it along the edges' sources and add the taken values, and ones, at the edges' targets; the second
  grid leaves `outArr` of the two sums; the last stretch cuts the sheet back to the nodes. Each stretch is read once,
  from arbitrary contents, as the term its operations compose; the boundaries are then rewritten into one another.
-/
import proofs.«410370_j6923487281238_3_alg».proof.Proof.FrameKernelIdeal
import proofs.«410370_j6923487281238_3_alg».proof.Proof.KerRegions
import proofs.«410370_j6923487281238_3_alg».proof.Proof.KerTerms
import Idealize.ShloMosaic.Lib.StableHlo.Run

set_option maxRecDepth 16384

noncomputable section

namespace Cert.KernelIdeal.KerRun

open Idealize.ShloMosaic Idealize.ShloMosaic.TcCoe Idealize.SL.Sem
open Cert.KernelIdeal Cert.KernelIdeal.Gen Cert.KernelIdeal.GenP Cert.KernelIdeal.KerTerms

variable {F : FTy → Type} [FloatOps F]
variable (m : (ℓ : Loc nD τ sig) → Buf (Elt F) ℓ) (ρ : Dev nD → PrngReg)

/-- A buffer that no operation of a stretch writes keeps its contents through the stretch. -/
local macro "untouched" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Before the first grid: the input sheet -/

/-- After the first operations: the inputs flattened. -/
theorem W1_v0 (c : Dev nD) :
    (W1 m ρ c (Proc.devRef .tc main_v0) : FVec F S1000000 .f32)
      = shapeCast S1000000 (m ((c.tc : Thread nD τ).loc main_arg0)) shapeCasts_S1000000x1_S1000000 := by
  show StableHlo.after hostOps0 (W0 m ρ c) (Proc.devRef .tc main_v0) = _
  after_results
  rfl

/-- After the first operations: the integer zero the padding value is made from. -/
theorem W1_c (c : Dev nD) :
    (W1 m ρ c (Proc.devRef .tc main_c) : IVec S_ 32) = constantI S_ 32 0#32 := by
  show StableHlo.after hostOps0 (W0 m ρ c) (Proc.devRef .tc main_c) = _
  after_results

/-- After the padding: the flattened inputs padded with that zero as a float. -/
theorem W2_v1 (c : Dev nD) :
    (W2 m ρ c (Proc.devRef .tc main_v1) : FVec F S1048576 .f32)
      = (fun x v => pad S1048576 ![0] ![48576] ![0] x v pads_S1000000_S1048576_0485760 h_S_)
          (W1 m ρ c (Proc.devRef .tc main_v0) : FVec F S1000000 .f32)
          (sitofp .f32 (W1 m ρ c (Proc.devRef .tc main_c) : IVec S_ 32)) := by
  show StableHlo.after hostOps0_1 (W1 m ρ c) (Proc.devRef .tc main_v1) = _
  after_results
  (try simp only [StableHlo.TRef.ofBuf, StableHlo.TRef.toBuf, cast_eq]) <;> rfl

/-- At the first grid's entry: the padded vector cut into rows. -/
theorem W3_v2_step (c : Dev nD) :
    (W3 m ρ c (Proc.devRef .tc main_v2) : FVec F S8192x128 .f32)
      = shapeCast S8192x128 (W2 m ρ c (Proc.devRef .tc main_v1) : FVec F S1048576 .f32) shapeCasts_S1048576_S8192x128 := by
  show StableHlo.after hostOps0_2 (W2 m ρ c) (Proc.devRef .tc main_v2) = _
  after_results
  rfl

/-- At the first grid's entry its moving input is the input sheet. -/
theorem W3_v2 (c : Dev nD) :
    (W3 m ρ c (Proc.devRef .tc main_v2) : FVec F S8192x128 .f32) = xSheet (m ((c.tc : Thread nD τ).loc main_arg0)) := by
  rw [W3_v2_step, W2_v1, W1_v0, W1_c]
  rfl

/-- An argument's buffer at the first grid's entry is the launch memory's. -/
theorem W3_arg (c : Dev nD) (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = m ((c.tc : Thread nD τ).loc b) :=
  h2.trans (h1.trans h0)

theorem W3_arg1 (c : Dev nD) : W3 m ρ c (Proc.devRef .tc main_arg1) = m ((c.tc : Thread nD τ).loc main_arg1) :=
  W3_arg m ρ c main_arg1 (by untouched hostOps0) (by untouched hostOps0_1) (by untouched hostOps0_2)
theorem W3_arg2 (c : Dev nD) : W3 m ρ c (Proc.devRef .tc main_arg2) = m ((c.tc : Thread nD τ).loc main_arg2) :=
  W3_arg m ρ c main_arg2 (by untouched hostOps0) (by untouched hostOps0_1) (by untouched hostOps0_2)
theorem W3_arg3 (c : Dev nD) : W3 m ρ c (Proc.devRef .tc main_arg3) = m ((c.tc : Thread nD τ).loc main_arg3) :=
  W3_arg m ρ c main_arg3 (by untouched hostOps0) (by untouched hostOps0_1) (by untouched hostOps0_2)
theorem W3_arg4 (c : Dev nD) : W3 m ρ c (Proc.devRef .tc main_arg4) = m ((c.tc : Thread nD τ).loc main_arg4) :=
  W3_arg m ρ c main_arg4 (by untouched hostOps0) (by untouched hostOps0_1) (by untouched hostOps0_2)
theorem W3_arg5 (c : Dev nD) : W3 m ρ c (Proc.devRef .tc main_arg5) = m ((c.tc : Thread nD τ).loc main_arg5) :=
  W3_arg m ρ c main_arg5 (by untouched hostOps0) (by untouched hostOps0_1) (by untouched hostOps0_2)
theorem W3_arg6 (c : Dev nD) : W3 m ρ c (Proc.devRef .tc main_arg6) = m ((c.tc : Thread nD τ).loc main_arg6) :=
  W3_arg m ρ c main_arg6 (by untouched hostOps0) (by untouched hostOps0_1) (by untouched hostOps0_2)

/-! ## The first grid -/

/-- At the first grid's exit its output sheet is `hArr` of the input sheet and the four small arguments. -/
theorem W4_v3 (c : Dev nD) :
    (W4 m ρ c (Proc.devRef .tc main_v3) : FVec F S8192x128 .f32)
      = hArr (xSheet (m ((c.tc : Thread nD τ).loc main_arg0))) (m ((c.tc : Thread nD τ).loc main_arg2))
          (m ((c.tc : Thread nD τ).loc main_arg3)) (m ((c.tc : Thread nD τ).loc main_arg4))
          (m ((c.tc : Thread nD τ).loc main_arg5)) := by
  have h := (W4_arr m ρ c 5).trans (KerRegions.final0 (V3 m ρ) c)
  rw [show V3 m ρ c main_v2 = xSheet (m ((c.tc : Thread nD τ).loc main_arg0)) from W3_v2 m ρ c,
    show V3 m ρ c main_arg2 = _ from W3_arg2 m ρ c, show V3 m ρ c main_arg3 = _ from W3_arg3 m ρ c,
    show V3 m ρ c main_arg4 = _ from W3_arg4 m ρ c, show V3 m ρ c main_arg5 = _ from W3_arg5 m ρ c] at h
  exact h

theorem W4_arg1 (c : Dev nD) : W4 m ρ c (Proc.devRef .tc main_arg1) = m ((c.tc : Thread nD τ).loc main_arg1) :=
  (W4_of_ne m ρ c main_arg1 (by decide)).trans (W3_arg1 m ρ c)
theorem W4_arg6 (c : Dev nD) : W4 m ρ c (Proc.devRef .tc main_arg6) = m ((c.tc : Thread nD τ).loc main_arg6) :=
  (W4_of_ne m ρ c main_arg6 (by decide)).trans (W3_arg6 m ρ c)

/-! ## Between the grids: the take along the sources, the two adding scatters at the targets -/

/-- After the first grid: its output sheet flattened. -/
theorem W5_v4 (c : Dev nD) :
    (W5 m ρ c (Proc.devRef .tc main_v4) : FVec F S1048576 .f32)
      = shapeCast S1048576 (W4 m ρ c (Proc.devRef .tc main_v3) : FVec F S8192x128 .f32) shapeCasts_S8192x128_S1048576 := by
  show StableHlo.after hostOps1 (W4 m ρ c) (Proc.devRef .tc main_v4) = _
  after_results
  rfl

/-- After the first grid: the edges' sources. -/
theorem W5_v6 (c : Dev nD) :
    (W5 m ρ c (Proc.devRef .tc main_v6) : IVec S32000000 32)
      = srcVec (W4 m ρ c (Proc.devRef .tc main_arg1) : IVec S2x32000000 32) := by
  show StableHlo.after hostOps1 (W4 m ρ c) (Proc.devRef .tc main_v6) = _
  after_results
  rfl

/-- After the first grid: the edges' targets. -/
theorem W5_v8 (c : Dev nD) :
    (W5 m ρ c (Proc.devRef .tc main_v8) : IVec S32000000 32)
      = dstVec (W4 m ρ c (Proc.devRef .tc main_arg1) : IVec S2x32000000 32) := by
  show StableHlo.after hostOps1 (W4 m ρ c) (Proc.devRef .tc main_v8) = _
  after_results
  rfl

theorem W5_arg6 (c : Dev nD) : W5 m ρ c (Proc.devRef .tc main_arg6) = W4 m ρ c (Proc.devRef .tc main_arg6) := by
  untouched hostOps1

/-- Contents moved to a typed reference's buffer and back are the contents. -/
theorem ofBuf_toBuf {T : BufTy} (x : StableHlo.TRef sig T) (v : T.Contents (Elt F)) :
    x.ofBuf (x.toBuf v) = v := by
  obtain ⟨r, h, h2, h3⟩ := x
  subst h
  rfl

/-- The sources' buffer read at its value's type is itself. -/
theorem ofBuf_v6 (V : Valuation τ sig (Elt F)) :
    (.of main_v6 : StableHlo.TRef sig ⟨S32000000, .i32⟩).ofBuf (V (Proc.devRef .tc main_v6))
      = (V (Proc.devRef .tc main_v6) : IVec S32000000 32) := rfl

/-- The table's buffer read at its value's type is itself. -/
theorem ofBuf_v4 (V : Valuation τ sig (Elt F)) :
    (.of main_v4 : StableHlo.TRef sig ⟨S1048576, .f32⟩).ofBuf (V (Proc.devRef .tc main_v4))
      = (V (Proc.devRef .tc main_v4) : FVec F S1048576 .f32) := rfl

/-- A value written to the take's result buffer is that value. -/
theorem toBuf_v9 (v : FVec F S32000000 .f32) :
    ((.of main_v9 : StableHlo.TRef sig ⟨S32000000, .f32⟩).toBuf (Val := Elt F) v : FVec F S32000000 .f32) = v := rfl

/-- The take's operations, from any contents: their result is `takeK` of the table and the positions. -/
theorem take_stretch (V : Valuation τ sig (Elt F)) :
    (StableHlo.after hostOps1_1 V (Proc.devRef .tc main_v9) : FVec F S32000000 .f32)
      = takeK (V (Proc.devRef .tc main_v4) : FVec F S1048576 .f32) (V (Proc.devRef .tc main_v6) : IVec S32000000 32) := by
  after_results_simp
  simp only [ofBuf_toBuf]
  rw [ofBuf_v6 V, ofBuf_v4 V]
  refine (toBuf_v9 _).trans ?_
  rfl

/-- After the take: the flattened sheet taken along the sources. -/
theorem W6_v9 (c : Dev nD) :
    (W6 m ρ c (Proc.devRef .tc main_v9) : FVec F S32000000 .f32)
      = takeK (W5 m ρ c (Proc.devRef .tc main_v4) : FVec F S1048576 .f32)
          (W5 m ρ c (Proc.devRef .tc main_v6) : IVec S32000000 32) :=
  take_stretch (W5 m ρ c)

theorem W6_v8 (c : Dev nD) : W6 m ρ c (Proc.devRef .tc main_v8) = W5 m ρ c (Proc.devRef .tc main_v8) := by
  untouched hostOps1_1
theorem W6_arg6 (c : Dev nD) : W6 m ρ c (Proc.devRef .tc main_arg6) = W5 m ρ c (Proc.devRef .tc main_arg6) := by
  untouched hostOps1_1

/-- The scatters' operations, from any contents: the sums' sheet. -/
theorem scatter_stretch_v17 (V : Valuation τ sig (Elt F)) :
    (StableHlo.after hostOps1_2 V (Proc.devRef .tc main_v17) : FVec F S8192x128 .f32)
      = shapeCast S8192x128
          (scatK (V (Proc.devRef .tc main_v8) : IVec S32000000 32) (V (Proc.devRef .tc main_v9) : FVec F S32000000 .f32))
          shapeCasts_S1048576_S8192x128 := by
  after_results_simp
  rfl

/-- The scatters' operations, from any contents: the counts' sheet. -/
theorem scatter_stretch_v18 (V : Valuation τ sig (Elt F)) :
    (StableHlo.after hostOps1_2 V (Proc.devRef .tc main_v18) : FVec F S8192x128 .f32)
      = shapeCast S8192x128
          (scatK (V (Proc.devRef .tc main_v8) : IVec S32000000 32)
            (broadcastInDim S32000000 ![] bcast_S_S32000000 (constant S_ .f32 0x3F800000#32)))
          shapeCasts_S1048576_S8192x128 := by
  after_results_simp
  rfl

/-- At the second grid's entry: the sums' sheet. -/
theorem W7_v17 (c : Dev nD) :
    (W7 m ρ c (Proc.devRef .tc main_v17) : FVec F S8192x128 .f32)
      = shapeCast S8192x128
          (scatK (W6 m ρ c (Proc.devRef .tc main_v8) : IVec S32000000 32)
            (W6 m ρ c (Proc.devRef .tc main_v9) : FVec F S32000000 .f32))
          shapeCasts_S1048576_S8192x128 :=
  scatter_stretch_v17 (W6 m ρ c)

/-- At the second grid's entry: the counts' sheet. -/
theorem W7_v18 (c : Dev nD) :
    (W7 m ρ c (Proc.devRef .tc main_v18) : FVec F S8192x128 .f32)
      = shapeCast S8192x128
          (scatK (W6 m ρ c (Proc.devRef .tc main_v8) : IVec S32000000 32)
            (broadcastInDim S32000000 ![] bcast_S_S32000000 (constant S_ .f32 0x3F800000#32)))
          shapeCasts_S1048576_S8192x128 :=
  scatter_stretch_v18 (W6 m ρ c)

theorem W7_arg6 (c : Dev nD) : W7 m ρ c (Proc.devRef .tc main_arg6) = W6 m ρ c (Proc.devRef .tc main_arg6) := by
  untouched hostOps1_2

/-! ## The second grid, and the cut back to the nodes -/

/-- At the second grid's exit its output sheet is `outArr` of the sheets it read. -/
theorem W8_v19 (c : Dev nD) :
    (W8 m ρ c (Proc.devRef .tc main_v19) : FVec F S8192x128 .f32)
      = outArr (W7 m ρ c (Proc.devRef .tc main_v17) : FVec F S8192x128 .f32)
          (W7 m ρ c (Proc.devRef .tc main_v18) : FVec F S8192x128 .f32)
          (W7 m ρ c (Proc.devRef .tc main_arg6) : FVec F S1x1 .f32) :=
  (W8_arr m ρ c 3).trans (KerRegions.final1 (V7 m ρ) c)

/-- The last operations, from any contents: the sheet flattened, cut to the nodes, laid out as a column. -/
theorem tail_stretch (V : Valuation τ sig (Elt F)) :
    (StableHlo.after hostOps2 V (Proc.devRef .tc main_v22) : FVec F S1000000x1 .f32)
      = shapeCast S1000000x1
          ((extractStridedSlice S1000000 ![0] · slices_S1048576_S1000000_0)
            (shapeCast S1048576 (V (Proc.devRef .tc main_v19) : FVec F S8192x128 .f32) shapeCasts_S8192x128_S1048576))
          shapeCasts_S1000000_S1000000x1 := by
  after_results
  rfl

/-- After the last operations: the second grid's sheet cut back to the nodes. -/
theorem W9_v22 (c : Dev nD) :
    (W9 m ρ c (Proc.devRef .tc main_v22) : FVec F S1000000x1 .f32)
      = shapeCast S1000000x1
          ((extractStridedSlice S1000000 ![0] · slices_S1048576_S1000000_0)
            (shapeCast S1048576 (W8 m ρ c (Proc.devRef .tc main_v19) : FVec F S8192x128 .f32)
              shapeCasts_S8192x128_S1048576))
          shapeCasts_S1000000_S1000000x1 :=
  tail_stretch (W8 m ρ c)

/-- The contents after the last host operation, at the result buffer: the composed term of the launch memory's arguments. -/
theorem W9_out (c : Dev nD) :
    W9 m ρ c (Proc.devRef .tc main_v22) = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [W9_v22, W8_v19, W7_v17, W7_v18, W7_arg6, W6_arg6, W5_arg6, W4_arg6, W6_v8, W6_v9, W5_v8, W5_v4, W5_v6, W4_arg1, W4_v3]
  rfl

/-- Every weakly fair execution of the kernel program terminates without a fault, its result at `kerOut` of the
    arguments, the arguments as launched. -/
theorem run : θ_run (defs (F := F)) (onTc (τ := τ) (main (F := F))) ⟨m, fun _ => 0, ρ⟩ (fun r => ∀ c : Dev nD,
      r.2.mem ((c.tc : Thread nD τ).loc main_v22) = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v22 (by decide))).trans (W9_out m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c)⟩) (run_all m ρ)

end Cert.KernelIdeal.KerRun

end
-- ==== Proof.Spec.lean ====
/-
  What both programs compute, as one function of the argument arrays.

  A node's feature is a two-layer perceptron of its scalar input: four hidden units, each the positive part of an
  affine function of the input, combined linearly with a bias. An edge carries the feature of its source node to its
  target node; a node's result is the mean of what arrives (the sum divided by the larger of the count and one), times
  one weight. Edge ends are read as signed integers; a source outside the nodes contributes nothing here (the claim's
  domain excludes it), a target outside the nodes is simply never equal to a node.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![1000000, 1]⟩
abbrev SE : Shape := ⟨2, ![2, 32000000]⟩
abbrev SW1 : Shape := ⟨2, ![1, 4]⟩
abbrev SB1 : Shape := ⟨1, ![4]⟩
abbrev SW2 : Shape := ⟨2, ![4, 1]⟩
abbrev SB2 : Shape := ⟨1, ![1]⟩
abbrev SWs : Shape := ⟨2, ![1, 1]⟩

/-- The perceptron of one scalar input `t`: the bias plus the four hidden units' contributions. -/
def mlp (W1 : SW1.Idx → EReal) (b1 : SB1.Idx → EReal) (W2 : SW2.Idx → EReal) (b2 : SB2.Idx → EReal) (t : EReal) : EReal :=
  b2 (ix1 (0 : Fin 1)) + ∑ k : Fin 4, max (t * W1 (ix2 (0 : Fin 1) k) + b1 (ix1 k)) 0 * W2 (ix2 k (0 : Fin 1))

/-- Node `n`'s feature. -/
def feat (x : SX.Idx → EReal) (W1 : SW1.Idx → EReal) (b1 : SB1.Idx → EReal) (W2 : SW2.Idx → EReal) (b2 : SB2.Idx → EReal)
    (n : Fin 1000000) : EReal :=
  mlp W1 b1 W2 b2 (x (ix2 n (0 : Fin 1)))

/-- Edge `e`'s source node, read signed. -/
def src (E : SE.Idx → BitVec 32) (e : Fin 32000000) : ℤ := (E (ix2 (0 : Fin 2) e)).toInt
/-- Edge `e`'s target node, read signed. -/
def dst (E : SE.Idx → BitVec 32) (e : Fin 32000000) : ℤ := (E (ix2 (1 : Fin 2) e)).toInt

/-- Every edge's source is a node. -/
def SrcInRange (E : SE.Idx → BitVec 32) : Prop := ∀ e : Fin 32000000, 0 ≤ src E e ∧ src E e < 1000000

/-- A per-node quantity at an integer node id; zero when the id is not a node. -/
def atNode (f : Fin 1000000 → EReal) (z : ℤ) : EReal :=
  if h : 0 ≤ z ∧ z < 1000000 then f ⟨z.toNat, by omega⟩ else 0

/-- The sum of the features arriving at node `n`. -/
def summed (f : Fin 1000000 → EReal) (E : SE.Idx → BitVec 32) (n : Fin 1000000) : EReal :=
  ∑ e : Fin 32000000, if dst E e = (n.val : ℤ) then atNode f (src E e) else 0

/-- The number of edges arriving at node `n`. -/
def count (E : SE.Idx → BitVec 32) (n : Fin 1000000) : EReal :=
  ∑ e : Fin 32000000, if dst E e = (n.val : ℤ) then (1 : EReal) else 0

/-- Node `n`'s result: the mean of what arrives, times the weight. -/
def outAt (x : SX.Idx → EReal) (E : SE.Idx → BitVec 32) (W1 : SW1.Idx → EReal) (b1 : SB1.Idx → EReal) (W2 : SW2.Idx → EReal)
    (b2 : SB2.Idx → EReal) (Ws : SWs.Idx → EReal) (n : Fin 1000000) : EReal :=
  Ideal.div (summed (feat x W1 b1 W2 b2) E n) (max (count E n) 1) * Ws (ix2 (0 : Fin 1) (0 : Fin 1))

/-- The result array. -/
def out (x : SX.Idx → EReal) (E : SE.Idx → BitVec 32) (W1 : SW1.Idx → EReal) (b1 : SB1.Idx → EReal) (W2 : SW2.Idx → EReal)
    (b2 : SB2.Idx → EReal) (Ws : SWs.Idx → EReal) : SX.Idx → EReal :=
  fun i => outAt x E W1 b1 W2 b2 Ws (i 0)

/-- An index of the result array is its row and column zero. -/
theorem idx_eq (i : SX.Idx) : i = ix2 (i 0 : Fin 1000000) (0 : Fin 1) := by
  funext a
  match a with
  | ⟨0, _⟩ => rfl
  | ⟨1, _⟩ => exact Subsingleton.elim (α := Fin 1) _ _

end Cert.Spec

end
-- ==== Proof.KerSheets.lean ====
/-
  The two grids' sheets read at an entry, on the extended reals.
-/
import proofs.«410370_j6923487281238_3_alg».proof.Proof.KerRegionTerms
import proofs.«410370_j6923487281238_3_alg».proof.Proof.Spec
import Idealize.ShloMosaic.PureOps.Ideal.Laws
import Idealize.ShloMosaic.Lib.Pipeline.Value
import Idealize.ShloMosaic.Lib.ValueLayout
import Idealize.ShloMosaic.Lib.StableHlo.Predicate
import Idealize.ShloMosaic.Lib.IdealHost

noncomputable section

namespace Cert.KernelIdeal.KerSheets

open Idealize.ShloMosaic Idealize.ShloMosaic.ValueIdx Cert.KernelIdeal Cert.KernelIdeal.Gen Cert.KernelIdeal.KerTerms

/-- One literal entry of the first layer's weights: the unit slice at column `k`, read at its only position. -/
theorem w1_entry (v : FVec Ideal S1x4 .f32) (o : Fin 2 → Nat) (hs : S1x4.Slices o S1x1)
    (hp : ∀ a, (![0, 0] : Fin 2 → Nat) a < S1x1.size a) (k : Fin 4) (h0 : o 0 = 0) (h1 : o 1 = k.val) :
    extractAt ![0, 0] (extractStridedSlice S1x1 o v hs) hp = v (ix2 (0 : Fin 1) k) := by
  unfold extractAt extractStridedSlice
  refine congrArg v (funext fun a => Fin.ext ?_)
  match a with
  | ⟨0, _⟩ => show o 0 + 0 = 0; omega
  | ⟨1, _⟩ => show o 1 + 0 = k.val; omega

/-- One literal entry of the first layer's biases. -/
theorem b1_entry (v : FVec Ideal S4 .f32) (o : Fin 1 → Nat) (hs : S4.Slices o S1)
    (hp : ∀ a, (![0] : Fin 1 → Nat) a < S1.size a) (k : Fin 4) (h0 : o 0 = k.val) :
    extractAt ![0] (extractStridedSlice S1 o v hs) hp = v (ix1 k) := by
  unfold extractAt extractStridedSlice
  refine congrArg v (funext fun a => Fin.ext ?_)
  match a with
  | ⟨0, _⟩ => show o 0 + 0 = k.val; omega

/-- One literal entry of the second layer's weights. -/
theorem w2_entry (v : FVec Ideal S4x1 .f32) (o : Fin 2 → Nat) (hs : S4x1.Slices o S1x1)
    (hp : ∀ a, (![0, 0] : Fin 2 → Nat) a < S1x1.size a) (k : Fin 4) (h0 : o 0 = k.val) (h1 : o 1 = 0) :
    extractAt ![0, 0] (extractStridedSlice S1x1 o v hs) hp = v (ix2 k (0 : Fin 1)) := by
  unfold extractAt extractStridedSlice
  refine congrArg v (funext fun a => Fin.ext ?_)
  match a with
  | ⟨0, _⟩ => show o 0 + 0 = k.val; omega
  | ⟨1, _⟩ => show o 1 + 0 = 0; omega

/-- The only entry of the second layer's bias. -/
theorem b2_entry (v : FVec Ideal S1 .f32) (hp : ∀ a, (![0] : Fin 1 → Nat) a < S1.size a) :
    extractAt ![0] v hp = v (ix1 (0 : Fin 1)) := by
  unfold extractAt
  refine congrArg v (funext fun a => Fin.ext ?_)
  match a with
  | ⟨0, _⟩ => rfl

/-- The only entry of the final weight. -/
theorem ws_entry (v : FVec Ideal S1x1 .f32) (hp : ∀ a, (![0, 0] : Fin 2 → Nat) a < S1x1.size a) :
    extractAt ![0, 0] v hp = v (ix2 (0 : Fin 1) (0 : Fin 1)) := by
  unfold extractAt
  refine congrArg v (funext fun a => Fin.ext ?_)
  match a with
  | ⟨0, _⟩ => rfl
  | ⟨1, _⟩ => rfl

/-- The zero word is the real zero. -/
theorem zero_word : (Scalar.ofBits (F := Ideal) .f32 0x00000000#32) = (0 : EReal) := Ideal.ofBits_zero_f32

/-- A cast to the same shape changes nothing. -/
theorem k0_pay2_eq (v0 : FVec Ideal S1024x128 .f32) : k0_pay2 v0 = v0 := by
  unfold k0_pay2
  exact shapeCast_self v0 _

/-- The third hidden unit before its positive part. -/
theorem k0_pay4_apply (v0 : FVec Ideal S1024x128 .f32) (w1 : FVec Ideal S1x4 .f32) (b1 : FVec Ideal S4 .f32) (j : S1024x128.Idx) :
    k0_pay4 v0 w1 b1 j = v0 j * w1 (ix2 (0 : Fin 1) (2 : Fin 4)) + b1 (ix1 (2 : Fin 4)) := by
  unfold k0_pay4
  rw [k0_pay2_eq]
  simp only [addf_apply, mulf_apply, broadcast_apply]
  rw [w1_entry w1 _ _ _ 2 rfl rfl, b1_entry b1 _ _ _ 2 rfl]

/-- The bias and the first two hidden units' contributions. -/
theorem k0_pay3_apply (v0 : FVec Ideal S1024x128 .f32) (w1 : FVec Ideal S1x4 .f32) (b1 : FVec Ideal S4 .f32)
    (w2 : FVec Ideal S4x1 .f32) (b2 : FVec Ideal S1 .f32) (j : S1024x128.Idx) :
    k0_pay3 v0 w1 b1 w2 b2 j
      = 0 + b2 (ix1 (0 : Fin 1))
        + max (v0 j * w1 (ix2 (0 : Fin 1) (0 : Fin 4)) + b1 (ix1 (0 : Fin 4))) 0 * w2 (ix2 (0 : Fin 4) (0 : Fin 1))
        + max (v0 j * w1 (ix2 (0 : Fin 1) (1 : Fin 4)) + b1 (ix1 (1 : Fin 4))) 0 * w2 (ix2 (1 : Fin 4) (0 : Fin 1)) := by
  unfold k0_pay3
  rw [k0_pay2_eq]
  simp only [addf_apply, mulf_apply, maximumf_apply, broadcast_apply]
  rw [w1_entry w1 _ _ _ 0 rfl rfl, b1_entry b1 _ _ _ 0 rfl, w2_entry w2 _ _ _ 0 rfl rfl,
    w1_entry w1 _ _ _ 1 rfl rfl, b1_entry b1 _ _ _ 1 rfl, w2_entry w2 _ _ _ 1 rfl rfl, b2_entry b2, zero_word]

/-- The flat position's word: with band `t` below eight, row `p` of the band and column `q`, nothing wraps. -/
theorem flat_word (t p q : Nat) (ht : t < 8) (hp : p < 1024) (hq : q < 128) :
    IntOp.addi (IntOp.muli (IntOp.addi (BitVec.ofNat 32 p) (Scalar.muli (BitVec.ofNat 32 t) 1024#32)) 128#32) (BitVec.ofNat 32 q)
      = BitVec.ofNat 32 ((p + t * 1024) * 128 + q) := by
  unfold Scalar.muli IntOp.addi IntOp.muli
  apply BitVec.eq_of_toNat_eq
  simp only [BitVec.toNat_add, BitVec.toNat_mul, BitVec.toNat_ofNat, Nat.reducePow, Nat.reduceMod]
  omega

/-- The signed comparison of the flat position's word with the number of nodes is the comparison of naturals. -/
theorem mask_bit (t p q : Nat) (ht : t < 8) (hp : p < 1024) (hq : q < 128) :
    IntOp.cmpi .slt
        (IntOp.addi (IntOp.muli (IntOp.addi (BitVec.ofNat 32 p) (Scalar.muli (BitVec.ofNat 32 t) 1024#32)) 128#32) (BitVec.ofNat 32 q))
        1000000#32 = 1#1
      ↔ (p + t * 1024) * 128 + q < 1000000 := by
  rw [flat_word t p q ht hp hq]
  have hlt : (p + t * 1024) * 128 + q < 2 ^ 31 := by omega
  have h1 : (BitVec.ofNat 32 ((p + t * 1024) * 128 + q)).toNat = (p + t * 1024) * 128 + q := by
    rw [BitVec.toNat_ofNat]; exact Nat.mod_eq_of_lt (by omega)
  have h2 : (1000000#32 : BitVec 32).toNat = 1000000 := by decide
  rw [StableHlo.Predicate.slt_iff_toNat (by rw [h1]; exact hlt) (by rw [h2]; omega), h1, h2]

/-- The mask's bit at row `p`, column `q` of a band: the row's and the column's words are the coordinates. -/
theorem mask_word (a : BitVec 32) (p : Fin 1024) (q : Fin 128) :
    cmpi .slt
        (addi
          (muli (addi (iota .tc S1024x128 32 [0] iota_S1024x128_d0_w32) (broadcast S1024x128 a)) (broadcast S1024x128 128#32))
          (iota .tc S1024x128 32 [1] iota_S1024x128_d1_w32))
        (broadcast S1024x128 1000000#32) (ix2 p q)
      = IntOp.cmpi .slt (IntOp.addi (IntOp.muli (IntOp.addi (BitVec.ofNat 32 p.val) a) 128#32) (BitVec.ofNat 32 q.val)) 1000000#32 := by
  have e0 : iota .tc S1024x128 32 [0] iota_S1024x128_d0_w32 (ix2 p q) = BitVec.ofNat 32 p.val :=
    iota_single_apply .tc S1024x128 32 0 iota_S1024x128_d0_w32 (ix2 p q)
  have e1 : iota .tc S1024x128 32 [1] iota_S1024x128_d1_w32 (ix2 p q) = BitVec.ofNat 32 q.val :=
    iota_single_apply .tc S1024x128 32 1 iota_S1024x128_d1_w32 (ix2 p q)
  simp only [cmpi, addi, muli, broadcast_apply]
  rw [e0, e1]

/-- The first body's stored value at row `p` of band `t`, column `q`. -/
theorem k0_pay1_apply (t : Nat) (ht : t < 8) (v1 : FVec Ideal S1024x128 .f32) (w1 : FVec Ideal S1x4 .f32) (b1 : FVec Ideal S4 .f32)
    (w2 : FVec Ideal S4x1 .f32) (v39 v47 : FVec Ideal S1024x128 .f32) (p : Fin 1024) (q : Fin 128) :
    k0_pay1 (BitVec.ofNat 32 t) v1 w1 b1 w2 v39 v47 (ix2 p q)
      = if (p.val + t * 1024) * 128 + q.val < 1000000 then
          v39 (ix2 p q) + max (v47 (ix2 p q)) 0 * w2 (ix2 (2 : Fin 4) (0 : Fin 1))
            + max (v1 (ix2 p q) * w1 (ix2 (0 : Fin 1) (3 : Fin 4)) + b1 (ix1 (3 : Fin 4))) 0 * w2 (ix2 (3 : Fin 4) (0 : Fin 1))
        else 0 := by
  unfold k0_pay1
  simp only [select_apply, addf_apply, mulf_apply, maximumf_apply, broadcast_apply]
  rw [w2_entry w2 _ _ _ 2 rfl rfl, w1_entry w1 _ _ _ 3 rfl rfl, b1_entry b1 _ _ _ 3 rfl, w2_entry w2 _ _ _ 3 rfl rfl, zero_word]
  rw [mask_word]
  unfold Scalar.select
  exact if_congr (mask_bit t p.val q.val ht p.isLt q.isLt) rfl rfl

/-- The one word is the real one. -/
theorem one_word : (Scalar.ofBits (F := Ideal) .f32 0x3F800000#32) = (1 : EReal) := Ideal.ofBits_one_f32

/-- The second body's stored value at an entry. -/
theorem k1_pay1_apply (v0 v2 : FVec Ideal S1024x128 .f32) (ws : FVec Ideal S1x1 .f32) (j : S1024x128.Idx) :
    k1_pay1 (F := Ideal) v0 v2 ws j = Ideal.div (v0 j) (max (v2 j) 1) * ws (ix2 (0 : Fin 1) (0 : Fin 1)) := by
  unfold k1_pay1
  simp only [shapeCast_self, mulf_apply, divf_apply, maximumf_apply, broadcast_apply]
  rw [ws_entry ws, one_word]

/-- A sheet's band read at the row's place inside the band is the sheet at the row. -/
theorem band_inBand (a : FVec Ideal S8192x128 .f32) (r : Fin 8192) (q : Fin 128) :
    band a (ix2 r q) (inBand (ix2 r q)) = a (ix2 r q) := by
  unfold band inBand
  have e : ∀ h, (⟨r.val / 1024 * 1024 + r.val % 1024, h⟩ : Fin 8192) = r := fun h => Fin.ext (Nat.div_add_mod' r.val 1024)
  exact congrArg (fun x => a (ix2 x q)) (e _)

/-- The first grid's sheet at row `r`, column `q`: the perceptron of the input sheet's entry when the flat position
    128 · r + q is a node, zero otherwise. -/
theorem hArr_apply (x2d : FVec Ideal S8192x128 .f32) (w1 : FVec Ideal S1x4 .f32) (b1 : FVec Ideal S4 .f32)
    (w2 : FVec Ideal S4x1 .f32) (b2 : FVec Ideal S1 .f32) (r : Fin 8192) (q : Fin 128) :
    hArr (F := Ideal) x2d w1 b1 w2 b2 (ix2 r q)
      = if r.val * 128 + q.val < 1000000 then Cert.Spec.mlp w1 b1 w2 b2 (x2d (ix2 r q)) else 0 := by
  have hr : r.val < 8192 := r.isLt
  have hx := band_inBand x2d r q
  unfold hArr
  show k0_pay1 (BitVec.ofNat 32 (r.val / 1024)) (k0_pay2 (band x2d (ix2 r q))) w1 b1 w2
      (k0_pay3 (band x2d (ix2 r q)) w1 b1 w2 b2) (k0_pay4 (band x2d (ix2 r q)) w1 b1)
      (ix2 (⟨r.val % 1024, Nat.mod_lt _ (by decide)⟩ : Fin 1024) q) = _
  rw [k0_pay1_apply (r.val / 1024) (by omega), k0_pay2_eq, k0_pay3_apply, k0_pay4_apply]
  have hx' : band x2d (ix2 r q) (ix2 (⟨r.val % 1024, Nat.mod_lt _ (by decide)⟩ : Fin 1024) q) = x2d (ix2 r q) := hx
  rw [hx']
  have hc : ((r.val % 1024 + r.val / 1024 * 1024) * 128 + q.val < 1000000) ↔ (r.val * 128 + q.val < 1000000) := by omega
  refine if_congr hc ?_ rfl
  unfold Cert.Spec.mlp
  rw [Fin.sum_univ_four, zero_add]
  simp only [add_assoc]

/-- The second grid's sheet at row `r`, column `q`: sum over the larger of count and one, times the weight. -/
theorem outArr_apply (s2d c2d : FVec Ideal S8192x128 .f32) (ws : FVec Ideal S1x1 .f32) (r : Fin 8192) (q : Fin 128) :
    outArr (F := Ideal) s2d c2d ws (ix2 r q)
      = Ideal.div (s2d (ix2 r q)) (max (c2d (ix2 r q)) 1) * ws (ix2 (0 : Fin 1) (0 : Fin 1)) := by
  unfold outArr
  rw [k1_pay1_apply, band_inBand, band_inBand]

end Cert.KernelIdeal.KerSheets

end
-- ==== Proof.KerValue.lean ====
/-
  The kernel program's term, read at a node: the mean of the arriving features times the weight.

  The program keeps its per-node data on a padded sheet of 8192 rows of 128 entries: node `j` sits at row `j / 128`,
  column `j % 128`, and the 48576 positions past the nodes hold zeros. Read at a node, each stage is the
  specification's: the feature sheet holds the node's feature; the take, at an edge whose source is a node, returns
  that source's feature; the adding scatter into zeros sums, at a slot, the updates whose target word read signed is
  the slot; and the final sheet divides the sum by the larger of the count and one and multiplies by the weight.
-/
import proofs.«410370_j6923487281238_3_alg».proof.Proof.KerTerms
import proofs.«410370_j6923487281238_3_alg».proof.Proof.KerSheets
import proofs.«410370_j6923487281238_3_alg».proof.Proof.Spec
import Idealize.ShloMosaic.PureOps.Ideal.Laws
import Idealize.ShloMosaic.Lib.Pipeline.Value
import Idealize.ShloMosaic.Lib.StableHlo.Predicate
import Idealize.ShloMosaic.Lib.KernelVsHost
import Idealize.ShloMosaic.Lib.IdealHost

noncomputable section

namespace Cert.KernelIdeal.KerValue

open scoped BigOperators
open Idealize.ShloMosaic Idealize.ShloMosaic.ValueIdx Cert.KernelIdeal Cert.KernelIdeal.KerTerms
open Cert.KernelIdeal.Facts₀ Cert.KernelIdeal.Facts

/-! ## Reshapes read at an index -/

section Reshape
variable {α : Type}

theorem flat_of_sheet (x : S8192x128.Idx → α) (h : S8192x128.ShapeCasts S1048576) (j : Fin 1048576) :
    shapeCast S1048576 x h (ix1 j)
      = x (ix2 (⟨j.val / 128, by have := j.isLt; omega⟩ : Fin 8192) (⟨j.val % 128, Nat.mod_lt _ (by decide)⟩ : Fin 128)) := by
  refine shapeCast_apply x h _ _ ?_
  rw [Shape.rowMajor_val_two, Shape.rowMajor_val_one]
  show j.val / 128 * 128 + j.val % 128 = j.val
  omega

theorem sheet_of_flat (x : S1048576.Idx → α) (h : S1048576.ShapeCasts S8192x128) (r : Fin 8192) (q : Fin 128) :
    shapeCast S8192x128 x h (ix2 r q)
      = x (ix1 (⟨r.val * 128 + q.val, by have := r.isLt; have := q.isLt; omega⟩ : Fin 1048576)) := by
  refine shapeCast_apply x h _ _ ?_
  rw [Shape.rowMajor_val_two, Shape.rowMajor_val_one]
  rfl

theorem col_of_vec (x : S1000000.Idx → α) (h : S1000000.ShapeCasts S1000000x1) (n : Fin 1000000) :
    shapeCast S1000000x1 x h (ix2 n (0 : Fin 1)) = x (ix1 n) := by
  refine shapeCast_apply x h _ _ ?_
  rw [Shape.rowMajor_val_two, Shape.rowMajor_val_one]
  show n.val = n.val * 1 + 0
  omega

theorem vec_of_col (x : S1000000x1.Idx → α) (h : S1000000x1.ShapeCasts S1000000) (n : Fin 1000000) :
    shapeCast S1000000 x h (ix1 n) = x (ix2 n (0 : Fin 1)) := by
  refine shapeCast_apply x h _ _ ?_
  rw [Shape.rowMajor_val_two, Shape.rowMajor_val_one]
  show n.val * 1 + 0 = n.val
  omega

theorem vec_of_row (x : S1x32000000.Idx → α) (h : S1x32000000.ShapeCasts S32000000) (e : Fin 32000000) :
    shapeCast S32000000 x h (ix1 e) = x (ix2 (0 : Fin 1) e) := by
  refine shapeCast_apply x h _ _ ?_
  rw [Shape.rowMajor_val_two, Shape.rowMajor_val_one]
  show 0 * 32000000 + e.val = e.val
  omega

end Reshape

/-! ## The stages before the take -/

/-- The padded input sheet at a position that is a node is the node's input. -/
theorem xSheet_apply (a0 : FVec Ideal S1000000x1 .f32) (r : Fin 8192) (q : Fin 128) (hlt : r.val * 128 + q.val < 1000000) :
    xSheet (F := Ideal) a0 (ix2 r q) = a0 (ix2 (⟨r.val * 128 + q.val, hlt⟩ : Fin 1000000) (0 : Fin 1)) := by
  unfold xSheet
  rw [sheet_of_flat]
  beta_reduce
  refine (pad_apply_of_inside _ _ _ _ _ _ _ _ (ix1 (⟨r.val * 128 + q.val, hlt⟩ : Fin 1000000)) ?_).trans ?_
  · intro a
    obtain rfl : a = 0 := Subsingleton.elim _ _
    show r.val * 128 + q.val = 0 + (r.val * 128 + q.val) * (0 + 1)
    omega
  · exact vec_of_col _ _ _

/-- The sources' vector at an edge is row 0 of the edge array there. -/
theorem srcVec_apply (a1 : IVec S2x32000000 32) (e : Fin 32000000) :
    srcVec a1 (ix1 e) = a1 (ix2 (0 : Fin 2) e) := by
  unfold srcVec
  rw [vec_of_row]
  refine extractStridedSlice_apply _ _ _ _ _ ?_
  intro a
  match a with
  | ⟨0, _⟩ => rfl
  | ⟨1, _⟩ => show e.val = 0 + e.val; omega

/-- The targets' vector at an edge is row 1 of the edge array there. -/
theorem dstVec_apply (a1 : IVec S2x32000000 32) (e : Fin 32000000) :
    dstVec a1 (ix1 e) = a1 (ix2 (1 : Fin 2) e) := by
  unfold dstVec
  rw [vec_of_row]
  refine extractStridedSlice_apply _ _ _ _ _ ?_
  intro a
  match a with
  | ⟨0, _⟩ => rfl
  | ⟨1, _⟩ => show e.val = 0 + e.val; omega

/-! ## The take -/

/-- A word read signed inside `[0, 1000000)` reads the same unsigned. -/
theorem word_small (p : BitVec 32) (h0 : 0 ≤ p.toInt) (h1 : p.toInt < 1000000) :
    p.toNat < 1000000 ∧ p.toInt = (p.toNat : ℤ) := by
  have hc := BitVec.toInt_eq_toNat_cond p
  have hlt := p.isLt
  split at hc <;> omega

/-- A scalar broadcast reads the scalar everywhere. -/
theorem bc_scalar {α : Type} {t : Shape} (h : S_.BroadcastsInDim t ![]) (v : S_.Idx → α) (j : t.Idx) :
    broadcastInDim t ![] h v j = v ix0 := by
  refine broadcastInDim_apply _ h v j ix0 ?_
  intro a
  exact a.elim0

/-- A vector laid as a column reads, at row `e`, the vector at `e`. -/
theorem bc_col {α : Type} (h : S32000000.BroadcastsInDim S32000000x1 ![0]) (v : S32000000.Idx → α) (e : Fin 32000000) :
    broadcastInDim S32000000x1 ![0] h v (ix2 e (0 : Fin 1)) = v (ix1 e) := by
  refine broadcastInDim_apply _ h v _ (ix1 e) ?_
  intro a
  obtain rfl : a = 0 := Subsingleton.elim _ _
  show e.val = if (32000000 : ℕ) = 1 then 0 else e.val
  rw [if_neg (by decide)]

/-- The reduction by `and` of a column along its axis of extent one, from the bit one, is the column's entry. -/
theorem reduce_and_col (x : IVec S32000000x1 1) (h : S32000000x1.ReducesTo [1] S32000000) (hu : 0 < S_.numel)
    (e : Fin 32000000) :
    Host.reduce IntOp.andi x (constantI S_ 1 1#1) h hu (ix1 e) = x (ix2 e (0 : Fin 1)) := by
  classical
  rw [Host.reduce_eq_fold]
  have hset : (Finset.univ.filter fun i : S32000000x1.Idx => h.drop i = ix1 e) = {ix2 e (0 : Fin 1)} := by
    ext i
    simp only [Finset.mem_filter, Finset.mem_univ, true_and, Finset.mem_singleton]
    have hv : (h.drop i 0 : Nat) = i 0 := Shape.ReducesTo.drop_apply_val h i 0
    constructor
    · intro hd
      rw [hd] at hv
      have h0 : (i 0 : Fin 32000000) = e := Fin.ext hv.symm
      have h1 : (i 1 : Fin 1) = (0 : Fin 1) := Subsingleton.elim (α := Fin 1) _ _
      refine (eq_ix2 i).trans ?_
      exact congrArg₂ (fun (a : Fin 32000000) (b : Fin 1) => (ix2 a b : S32000000x1.Idx)) h0 h1
    · intro hi
      subst hi
      funext b
      obtain rfl : b = 0 := Subsingleton.elim _ _
      exact Fin.ext hv
  rw [hset, Finset.fold_singleton]
  show IntOp.andi (x (ix2 e (0 : Fin 1))) 1#1 = x (ix2 e (0 : Fin 1))
  unfold IntOp.andi
  rcases BitVec.eq_zero_or_eq_one (x (ix2 e (0 : Fin 1))) with hx | hx <;> rw [hx] <;> rfl

/-- The range test, the gather and the final select of the take, at an edge whose position word `p`, read signed, is
    inside `[0, 1000000)`: the test passes, the clamp of the start index does nothing, and the table's entry at `p`
    is returned; the fill value is not read. -/
theorem take_core (tbl : FVec Ideal S1048576 .f32) (c : IVec S32000000x1 32) (fill : FVec Ideal S32000000 .f32)
    (e : Fin 32000000) (p : BitVec 32) (hc : c (ix2 e (0 : Fin 1)) = p) (h0 : 0 ≤ p.toInt) (h1 : p.toInt < 1000000) :
    select
      (Host.reduce IntOp.andi
        (andi (cmpi .sge c (broadcastInDim S32000000x1 ![] bcast_S_S32000000x1 (constantI S_ 32 0#32)))
          (cmpi .sle c (broadcastInDim S32000000x1 ![0, 1] bcast_S1x1_S32000000x1_0_1
            (broadcastInDim S1x1 ![1] bcast_S1_S1x1_1 (constantI S1 32 1048575#32)))))
        (constantI S_ 1 1#1) reducesTo_S32000000x1_S32000000_d1 h_S_)
      (Host.gather gather_S1048576_S32000000x1_S32000000_n_0_n_n_0_1_1 tbl c) fill (ix1 e)
      = tbl (ix1 (⟨p.toInt.toNat, by omega⟩ : Fin 1048576)) := by
  obtain ⟨hn, hi⟩ := word_small p h0 h1
  rw [select_apply, reduce_and_col]
  have hcond : andi (cmpi .sge c (broadcastInDim S32000000x1 ![] bcast_S_S32000000x1 (constantI S_ 32 0#32)))
      (cmpi .sle c (broadcastInDim S32000000x1 ![0, 1] bcast_S1x1_S32000000x1_0_1
        (broadcastInDim S1x1 ![1] bcast_S1_S1x1_1 (constantI S1 32 1048575#32)))) (ix2 e (0 : Fin 1)) = 1#1 := by
    show IntOp.andi (IntOp.cmpi .sge (c (ix2 e (0 : Fin 1))) 0#32) (IntOp.cmpi .sle (c (ix2 e (0 : Fin 1))) 1048575#32) = 1#1
    have hk : (1048575#32 : BitVec 32).toNat = 1048575 := by decide
    rw [hc, (StableHlo.Predicate.sge_iff_toNat (by omega) (by decide)).mpr (Nat.zero_le _),
      (StableHlo.Predicate.sle_iff_toNat (by omega) (by decide)).mpr (by rw [hk]; omega)]
    rfl
  rw [hcond, select_one]
  have hix : (ix1 e : S32000000.Idx) = Shape.Idx.ofFin e := Shape.Idx.eq_ofFin (ix1 e)
  refine ((congrArg _ hix).trans (StableHlo.Predicate.gather_take
    gather_S1048576_S32000000x1_S32000000_n_0_n_n_0_1_1 rfl rfl rfl rfl tbl c e (by decide))).trans ?_
  refine congrArg tbl (funext fun a => Fin.ext ?_)
  obtain rfl : a = 0 := Subsingleton.elim _ _
  have hixp : (StableHlo.Predicate.ixP e : S32000000x1.Idx) = ix2 e (0 : Fin 1) := by
    funext b
    match b with
    | ⟨0, _⟩ => rfl
    | ⟨1, _⟩ => rfl
  show min (c (StableHlo.Predicate.ixP e)).toInt.toNat (1048576 - 1) = p.toInt.toNat
  rw [hixp, hc]
  omega

/-- The take at an edge whose position word, read signed, is inside `[0, 1000000)`: the table's entry there. -/
theorem takeK_apply (tbl : FVec Ideal S1048576 .f32) (s : IVec S32000000 32) (e : Fin 32000000)
    (h0 : 0 ≤ (s (ix1 e)).toInt) (h1 : (s (ix1 e)).toInt < 1000000) :
    takeK (F := Ideal) tbl s (ix1 e)
      = tbl (ix1 (⟨(s (ix1 e)).toInt.toNat, by omega⟩ : Fin 1048576)) := by
  -- the position after the wrap of negatives is the position itself
  have hwrap : select (cmpi .slt s (broadcastInDim S32000000 ![] bcast_S_S32000000 (constantI S_ 32 0#32)))
      (addi s (broadcastInDim S32000000 ![] bcast_S_S32000000 (constantI S_ 32 1048576#32))) s (ix1 e) = s (ix1 e) := by
    rw [select_apply]
    have hcz : cmpi .slt s (broadcastInDim S32000000 ![] bcast_S_S32000000 (constantI S_ 32 0#32)) (ix1 e) = 0#1 := by
      show BitVec.ofBool ((s (ix1 e)).slt 0#32) = 0#1
      have hf : (s (ix1 e)).slt 0#32 = false := by
        rw [BitVec.slt]
        simp only [decide_eq_false_iff_not, not_lt]
        exact h0
      rw [hf]; rfl
    rw [hcz, select_zero]
  unfold takeK
  exact take_core tbl _ _ e (s (ix1 e)) ((bc_col _ _ e).trans hwrap) h0 h1

/-! ## The adding scatter -/

/-- The host's adding scatter on the extended reals, at a slot: the operand's entry plus the updates that land there. -/
theorem hostScatterAdd_apply {s si su : Shape} (d : ScatterDims s si su) {w : Nat} (x : FVec Ideal s .f32)
    (idx : IVec si w) (upd : FVec Ideal su .f32) (i : s.Idx) :
    Host.scatterAdd d x idx upd i
      = x i + ∑ j ∈ Finset.univ.filter (fun j => d.resultIdx? j idx = some i), upd j := rfl

/-- The same with the landing test inside the sum. -/
theorem hostScatterAdd_sum {s si su : Shape} (d : ScatterDims s si su) {w : Nat} (x : FVec Ideal s .f32)
    (idx : IVec si w) (upd : FVec Ideal su .f32) (i : s.Idx) :
    Host.scatterAdd d x idx upd i
      = x i + ∑ j : su.Idx, if d.resultIdx? j idx = some i then upd j else 0 := by
  rw [hostScatterAdd_apply, Finset.sum_filter]

/-- A sum over a vector's indices is the sum over its coordinates. -/
theorem sum_idx1 {M : Type} [AddCommMonoid M] {n : Nat} (g : (⟨1, ![n]⟩ : Shape).Idx → M) :
    ∑ j, g j = ∑ e : Fin n, g (ix1 e) := by
  let φ : Fin n ≃ (⟨1, ![n]⟩ : Shape).Idx :=
    ⟨fun e => ix1 e, fun j => (j 0 : Fin n), fun e => rfl, fun j => (eq_ix1 j).symm⟩
  exact (Equiv.sum_comp φ g).symm

/-- The scatter's start on the operand's one axis for the update on edge `e`: the target word at `e`, read signed. -/
theorem scat_start (idx : IVec S32000000x1 32) (e : Fin 32000000) :
    scatter_S1048576_S32000000x1_S32000000_n_0_0_1.start (ix1 e) idx 0
      = (idx (ix2 e (0 : Fin 1))).toInt := by
  have hm : (0 : Fin 1) ∈ scatter_S1048576_S32000000x1_S32000000_n_0_0_1.scatterDimsToOperandDims :=
    List.mem_singleton.mpr rfl
  have hne : ¬ ((0 : ℕ) = scatter_S1048576_S32000000x1_S32000000_n_0_0_1.indexVectorDim) := by decide
  have heq : (1 : ℕ) = scatter_S1048576_S32000000x1_S32000000_n_0_0_1.indexVectorDim := rfl
  unfold ScatterDims.start
  rw [dif_pos hm]
  refine congrArg (fun k : S32000000x1.Idx => (idx k).toInt) ?_
  funext b
  match b with
  | ⟨0, _⟩ =>
    unfold ScatterDims.siIdx
    rw [dif_neg hne]
    unfold ScatterDims.siCoord
    apply Fin.ext
    simp only [Fin.val_cast]
    have hj : ∀ X : Fin 1, ((ix1 e : S32000000.Idx) X).val = e.val := fun X => by
      obtain rfl : X = 0 := Subsingleton.elim _ _
      rfl
    exact hj _
  | ⟨1, _⟩ =>
    unfold ScatterDims.siIdx
    rw [dif_pos heq]
    apply Fin.ext
    show List.idxOf (0 : Fin 1) [0] = 0
    rfl

/-- The scatter has no window coordinate on the operand's one axis. -/
theorem scat_window (j : S32000000.Idx) :
    scatter_S1048576_S32000000x1_S32000000_n_0_0_1.window j 0 = 0 := by
  have hnm : (0 : Fin 1) ∉ scatter_S1048576_S32000000x1_S32000000_n_0_0_1.sKept := by decide
  unfold ScatterDims.window
  rw [dif_neg hnm]

/-- The update on edge `e` lands on slot `m` exactly when its target word, read signed, is `m`. -/
theorem scat_hits (idx : IVec S32000000x1 32) (e : Fin 32000000) (m : Fin 1048576) :
    scatter_S1048576_S32000000x1_S32000000_n_0_0_1.resultIdx? (ix1 e) idx = some (ix1 m)
      ↔ (idx (ix2 e (0 : Fin 1))).toInt = (m.val : ℤ) := by
  have hs := scat_start idx e
  have hw := scat_window (ix1 e)
  have hm := m.isLt
  have hsz : S1048576.size 0 = 1048576 := rfl
  unfold ScatterDims.resultIdx?
  by_cases hall : ∀ a, 0 ≤ scatter_S1048576_S32000000x1_S32000000_n_0_0_1.start (ix1 e) idx a
        + scatter_S1048576_S32000000x1_S32000000_n_0_0_1.window (ix1 e) a
      ∧ scatter_S1048576_S32000000x1_S32000000_n_0_0_1.start (ix1 e) idx a
        + scatter_S1048576_S32000000x1_S32000000_n_0_0_1.window (ix1 e) a < S1048576.size a
  · rw [dif_pos hall]
    have hb := (hall 0).1
    rw [hs, hw] at hb
    constructor
    · intro h
      have h0 := congrArg Fin.val (congrFun (Option.some.inj h) 0)
      change (scatter_S1048576_S32000000x1_S32000000_n_0_0_1.start (ix1 e) idx 0
        + (scatter_S1048576_S32000000x1_S32000000_n_0_0_1.window (ix1 e) 0 : ℤ)).toNat = m.val at h0
      rw [hs, hw] at h0
      omega
    · intro h
      refine congrArg some (funext fun a => ?_)
      obtain rfl : a = 0 := Subsingleton.elim _ _
      apply Fin.ext
      show (scatter_S1048576_S32000000x1_S32000000_n_0_0_1.start (ix1 e) idx 0
        + (scatter_S1048576_S32000000x1_S32000000_n_0_0_1.window (ix1 e) 0 : ℤ)).toNat = m.val
      rw [hs, hw, h]
      omega
  · rw [dif_neg hall]
    constructor
    · intro h
      cases h
    · intro h
      exfalso
      apply hall
      intro a
      obtain rfl : a = 0 := Subsingleton.elim _ _
      rw [hs, hw, h, hsz]
      omega

/-- The adding scatter into zeros read at slot `m`: the sum of the updates whose target word, read signed, is `m`. -/
theorem scatK_apply (d : IVec S32000000 32) (u : FVec Ideal S32000000 .f32) (m : Fin 1048576) :
    scatK (F := Ideal) d u (ix1 m)
      = ∑ e : Fin 32000000, if (d (ix1 e)).toInt = (m.val : ℤ) then u (ix1 e) else 0 := by
  refine (hostScatterAdd_sum _ _ _ _ _).trans ?_
  rw [bc_scalar, constant_apply, Ideal.ofBits_zero_f32, zero_add, sum_idx1]
  refine Finset.sum_congr rfl fun e _ => ?_
  have hh := scat_hits (broadcastInDim S32000000x1 ![0] bcast_S32000000_S32000000x1_0 d) e m
  rw [bc_col] at hh
  exact if_congr hh rfl rfl

/-! ## The stages read at a node -/

/-- The flattened feature sheet at a node's position is the node's feature. -/
theorem hflat_apply (a0 : FVec Ideal S1000000x1 .f32) (a2 : FVec Ideal S1x4 .f32) (a3 : FVec Ideal S4 .f32)
    (a4 : FVec Ideal S4x1 .f32) (a5 : FVec Ideal S1 .f32) (s : ℕ) (hs : s < 1000000) :
    shapeCast S1048576 (hArr (F := Ideal) (xSheet a0) a2 a3 a4 a5) shapeCasts_S8192x128_S1048576
        (ix1 (⟨s, by omega⟩ : Fin 1048576))
      = Cert.Spec.feat a0 a2 a3 a4 a5 ⟨s, hs⟩ := by
  have hr : s / 128 < 8192 := by omega
  have hq : s % 128 < 128 := Nat.mod_lt _ (by decide)
  have hlt : (⟨s / 128, hr⟩ : Fin 8192).val * 128 + (⟨s % 128, hq⟩ : Fin 128).val < 1000000 := by
    show s / 128 * 128 + s % 128 < 1000000
    omega
  refine (flat_of_sheet _ _ _).trans ?_
  refine (KerSheets.hArr_apply _ _ _ _ _ ⟨s / 128, hr⟩ ⟨s % 128, hq⟩).trans ?_
  rw [if_pos hlt]
  refine (congrArg (Cert.Spec.mlp a2 a3 a4 a5) (xSheet_apply a0 ⟨s / 128, hr⟩ ⟨s % 128, hq⟩ hlt)).trans ?_
  exact congrArg (fun k : Fin 1000000 => Cert.Spec.mlp a2 a3 a4 a5 (a0 (ix2 k (0 : Fin 1))))
    (Fin.ext (by show s / 128 * 128 + s % 128 = s; omega))

/-- With every source a node, the message on edge `e` is its source's feature. -/
theorem msgs_apply (a0 : FVec Ideal S1000000x1 .f32) (a1 : IVec S2x32000000 32) (a2 : FVec Ideal S1x4 .f32)
    (a3 : FVec Ideal S4 .f32) (a4 : FVec Ideal S4x1 .f32) (a5 : FVec Ideal S1 .f32)
    (hs : Cert.Spec.SrcInRange a1) (e : Fin 32000000) :
    takeK (F := Ideal) (shapeCast S1048576 (hArr (F := Ideal) (xSheet a0) a2 a3 a4 a5) shapeCasts_S8192x128_S1048576)
        (srcVec a1) (ix1 e)
      = Cert.Spec.atNode (Cert.Spec.feat a0 a2 a3 a4 a5) (Cert.Spec.src a1 e) := by
  obtain ⟨h0, h1⟩ := hs e
  have hsv : srcVec a1 (ix1 e) = a1 (ix2 (0 : Fin 2) e) := srcVec_apply a1 e
  have h0' : 0 ≤ (srcVec a1 (ix1 e)).toInt := by rw [hsv]; exact h0
  have h1' : (srcVec a1 (ix1 e)).toInt < 1000000 := by rw [hsv]; exact h1
  have hlt : (srcVec a1 (ix1 e)).toInt.toNat < 1000000 := by omega
  rw [takeK_apply _ _ e h0' h1']
  unfold Cert.Spec.atNode
  rw [dif_pos ⟨h0, h1⟩]
  refine (hflat_apply a0 a2 a3 a4 a5 _ hlt).trans ?_
  exact congrArg (Cert.Spec.feat a0 a2 a3 a4 a5)
    (Fin.ext (by show (srcVec a1 (ix1 e)).toInt.toNat = (Cert.Spec.src a1 e).toNat; rw [hsv]; rfl))

/-- A scatter's sheet at node `n`'s position: the sum of the updates on the edges whose target is `n`. -/
theorem slot_apply (a1 : IVec S2x32000000 32) (u : FVec Ideal S32000000 .f32) (f : Fin 32000000 → EReal)
    (hu : ∀ e, u (ix1 e) = f e) (n : Fin 1000000) :
    shapeCast S8192x128 (scatK (F := Ideal) (dstVec a1) u) shapeCasts_S1048576_S8192x128
        (ix2 (⟨n.val / 128, by have := n.isLt; omega⟩ : Fin 8192) (⟨n.val % 128, Nat.mod_lt _ (by decide)⟩ : Fin 128))
      = ∑ e : Fin 32000000, if Cert.Spec.dst a1 e = (n.val : ℤ) then f e else 0 := by
  rw [sheet_of_flat, scatK_apply]
  refine Finset.sum_congr rfl fun e _ => ?_
  have hm : ((n.val / 128 * 128 + n.val % 128 : ℕ) : ℤ) = (n.val : ℤ) := by omega
  rw [dstVec_apply, hu e]
  show (if (a1 (ix2 (1 : Fin 2) e)).toInt = ((n.val / 128 * 128 + n.val % 128 : ℕ) : ℤ) then f e else 0)
    = if Cert.Spec.dst a1 e = (n.val : ℤ) then f e else 0
  rw [hm]
  rfl

/-- With every source a node, the kernel program's result at node `n` is the specification's. -/
theorem kerOut_apply (a0 : FVec Ideal S1000000x1 .f32) (a1 : IVec S2x32000000 32) (a2 : FVec Ideal S1x4 .f32)
    (a3 : FVec Ideal S4 .f32) (a4 : FVec Ideal S4x1 .f32) (a5 : FVec Ideal S1 .f32) (a6 : FVec Ideal S1x1 .f32)
    (hs : Cert.Spec.SrcInRange a1) (n : Fin 1000000) :
    kerOut (F := Ideal) a0 a1 a2 a3 a4 a5 a6 (ix2 n (0 : Fin 1)) = Cert.Spec.outAt a0 a1 a2 a3 a4 a5 a6 n := by
  unfold kerOut
  dsimp only
  rw [col_of_vec]
  refine (extractStridedSlice_apply _ _ _ _ (ix1 (⟨n.val, by have := n.isLt; omega⟩ : Fin 1048576)) ?_).trans ?_
  · intro a
    obtain rfl : a = 0 := Subsingleton.elim _ _
    show n.val = 0 + n.val
    omega
  rw [flat_of_sheet, KerSheets.outArr_apply,
    slot_apply a1 _ _ (fun e => msgs_apply a0 a1 a2 a3 a4 a5 hs e) n,
    slot_apply a1 _ (fun _ => (1 : EReal)) (fun e => Ideal.ofBits_one_f32) n]
  unfold Cert.Spec.outAt Cert.Spec.summed Cert.Spec.count
  with_reducible rfl

end Cert.KernelIdeal.KerValue

end
-- ==== Proof.RefTerms.lean ====
/-
  The reference program's result as one term of its argument arrays: its host operations, in order, the three
  outlined functions written out where they are called.
-/
import proofs.«410370_j6923487281238_3_alg».proof.Proof.Gen.ReferenceIdeal

noncomputable section

namespace Cert.ReferenceIdeal.RefTerms

open Idealize.ShloMosaic Cert.ReferenceIdeal
open Cert.ReferenceIdeal.Facts₀ Cert.ReferenceIdeal.Facts

variable {F : FTy → Type} [FloatOps F]

/-- The node features: two matrix products with a positive part between them, each followed by its bias. -/
def featArr (a0 : FVec F S1000000x1 .f32) (a2 : FVec F S1x4 .f32) (a3 : FVec F S4 .f32) (a4 : FVec F S4x1 .f32)
    (a5 : FVec F S1 .f32) : FVec F S1000000x1 .f32 :=
  let v0 : FVec F S1000000x4 .f32 := (fun l r => Host.dotGeneral dot_S1000000x1_S1x4_S1000000x4_1_0_0_1_n_n none l r) a0 a2
  let v1 : FVec F S1x4 .f32 := broadcastInDim S1x4 ![1] bcast_S4_S1x4_1 a3
  let v2 : FVec F S1000000x4 .f32 := broadcastInDim S1000000x4 ![0, 1] bcast_S1x4_S1000000x4_0_1 v1
  let v3 : FVec F S1000000x4 .f32 := addf v0 v2
  let r0 : FVec F S1000000x4 .f32 := broadcastInDim S1000000x4 ![] bcast_S_S1000000x4 (constant S_ .f32 0x00000000#32)
  let v4 : FVec F S1000000x4 .f32 := maximumf v3 r0
  let v5 : FVec F S1000000x1 .f32 := (fun l r => Host.dotGeneral dot_S1000000x4_S4x1_S1000000x1_1_0_0_1_n_n none l r) v4 a4
  let v6 : FVec F S1x1 .f32 := broadcastInDim S1x1 ![1] bcast_S1_S1x1_1 a5
  let v7 : FVec F S1000000x1 .f32 := broadcastInDim S1000000x1 ![0, 1] bcast_S1x1_S1000000x1_0_1 v6
  addf v5 v7

/-- Row 0 of the edge array as a vector: the sources. -/
def srcVec (a1 : IVec S2x32000000 32) : IVec S32000000 32 :=
  shapeCast S32000000 ((extractStridedSlice S1x32000000 ![0, 0] · slices_S2x32000000_S1x32000000_0_0) a1)
    shapeCasts_S1x32000000_S32000000

/-- Row 1 of the edge array as a vector: the targets. -/
def dstVec (a1 : IVec S2x32000000 32) : IVec S32000000 32 :=
  shapeCast S32000000 ((extractStridedSlice S1x32000000 ![1, 0] · slices_S2x32000000_S1x32000000_1_0) a1)
    shapeCasts_S1x32000000_S32000000

/-- The take of the rows of a 1000000 × 1 table at a vector of positions, as jnp prints it: a negative position is moved
    up by the number of rows, the row is gathered, and a position still outside the table yields the fill value. -/
def takeR (tbl : FVec F S1000000x1 .f32) (s : IVec S32000000 32) : FVec F S32000000x1 .f32 :=
  let v0 : IVec S32000000 32 := broadcastInDim S32000000 ![] bcast_S_S32000000 (constantI S_ 32 0#32)
  let v1 : IVec S32000000 1 := cmpi .slt s v0
  let v2 : IVec S32000000 32 := broadcastInDim S32000000 ![] bcast_S_S32000000 (constantI S_ 32 1000000#32)
  let v3 : IVec S32000000 32 := addi s v2
  let v4 : IVec S32000000 32 := select v1 v3 s
  let v5 : IVec S32000000x1 32 := broadcastInDim S32000000x1 ![0] bcast_S32000000_S32000000x1_0 v4
  let v6 : IVec S32000000x1 32 := broadcastInDim S32000000x1 ![] bcast_S_S32000000x1 (constantI S_ 32 0#32)
  let v7 : IVec S32000000x1 1 := cmpi .sge v5 v6
  let v8 : IVec S1x1 32 := broadcastInDim S1x1 ![1] bcast_S1_S1x1_1 (constantI S1 32 999999#32)
  let v9 : IVec S32000000x1 32 := broadcastInDim S32000000x1 ![0, 1] bcast_S1x1_S32000000x1_0_1 v8
  let v10 : IVec S32000000x1 1 := cmpi .sle v5 v9
  let v11 : IVec S32000000x1 1 := andi v7 v10
  let v12 : IVec S32000000 1 :=
    (fun x v => Host.reduce IntOp.andi x v reducesTo_S32000000x1_S32000000_d1 h_S_) v11 (constantI S_ 1 1#1)
  let v13 : FVec F S32000000x1 .f32 :=
    (fun x i => Host.gather gather_S1000000x1_S32000000x1_S32000000x1_1_0_n_n_0_1_11 x i) tbl v5
  let v14 : IVec S32000000x1 1 := broadcastInDim S32000000x1 ![0] bcast_S32000000_S32000000x1_0 v12
  let v15 : FVec F S32000000x1 .f32 := broadcastInDim S32000000x1 ![] bcast_S_S32000000x1 (constant S_ .f32 0x7FC00000#32)
  select v14 v13 v15

/-- The adding scatter of a column of updates into a column of 1000000 zeros at the targets. -/
def scatR (d : IVec S32000000 32) (u : FVec F S32000000x1 .f32) : FVec F S1000000x1 .f32 :=
  Host.scatterAdd scatter_S1000000x1_S32000000x1_S32000000x1_1_0_0_1
    (broadcastInDim S1000000x1 ![] bcast_S_S1000000x1 (constant S_ .f32 0x00000000#32))
    (broadcastInDim S32000000x1 ![0] bcast_S32000000_S32000000x1_0 d) u

/-- The reference program's result. -/
def refOut (a0 : FVec F S1000000x1 .f32) (a1 : IVec S2x32000000 32) (a2 : FVec F S1x4 .f32) (a3 : FVec F S4 .f32)
    (a4 : FVec F S4x1 .f32) (a5 : FVec F S1 .f32) (a6 : FVec F S1x1 .f32) : FVec F S1000000x1 .f32 :=
  let h : FVec F S1000000x1 .f32 := featArr a0 a2 a3 a4 a5
  let msgs : FVec F S32000000x1 .f32 := takeR h (srcVec a1)
  let summed : FVec F S1000000x1 .f32 := scatR (dstVec a1) msgs
  let ones : FVec F S32000000x1 .f32 := broadcastInDim S32000000x1 ![] bcast_S_S32000000x1 (constant S_ .f32 0x3F800000#32)
  let cnt : FVec F S1000000x1 .f32 := scatR (dstVec a1) ones
  let one : FVec F S1000000x1 .f32 := broadcastInDim S1000000x1 ![] bcast_S_S1000000x1 (constant S_ .f32 0x3F800000#32)
  let den : FVec F S1000000x1 .f32 := maximumf cnt one
  let mean : FVec F S1000000x1 .f32 := Host.divf summed den
  (fun l r => Host.dotGeneral dot_S1000000x1_S1x1_S1000000x1_1_0_0_1_n_n none l r) mean a6

end Cert.ReferenceIdeal.RefTerms

end
-- ==== Proof.RefRun.lean ====
/-
  The reference program's run: every execution ends with the result buffer at the composed term of the arguments.
-/
import proofs.«410370_j6923487281238_3_alg».proof.Proof.RefTerms
import Idealize.ShloMosaic.Lib.StableHlo.Run

noncomputable section

namespace Cert.ReferenceIdeal.RefRun

open Idealize.ShloMosaic Idealize.ShloMosaic.TcCoe Idealize.SL.Sem Cert.ReferenceIdeal Cert.ReferenceIdeal.RefTerms

variable {F : FTy → Type} [FloatOps F]

section Fold

open Idealize.ShloMosaic.StableHlo
open Cert.ReferenceIdeal.Facts₀ Cert.ReferenceIdeal.Facts

/-- The program's 53 operations in order: the positive part's three where it is called, the take's twenty-three
    (the select of its inner function among them) where it is called, each over the buffers of that call. -/
abbrev ops : List (HloOp τ sig (Elt F)) :=
  [ StableHlo.binary main_arg0 main_arg2 main_v0 ((fun l r => Host.dotGeneral dot_S1000000x1_S1x4_S1000000x4_1_0_0_1_n_n none l r) : (⟨S1000000x1, .f32⟩ : BufTy).Contents (Elt F) → (⟨S1x4, .f32⟩ : BufTy).Contents (Elt F) → (⟨S1000000x4, .f32⟩ : BufTy).Contents (Elt F)),
    StableHlo.unary main_arg3 main_v1 (broadcastInDim S1x4 ![1] bcast_S4_S1x4_1 : (⟨S4, .f32⟩ : BufTy).Contents (Elt F) → (⟨S1x4, .f32⟩ : BufTy).Contents (Elt F)),
    StableHlo.unary main_v1 main_v2 (broadcastInDim S1000000x4 ![0, 1] bcast_S1x4_S1000000x4_0_1 : (⟨S1x4, .f32⟩ : BufTy).Contents (Elt F) → (⟨S1000000x4, .f32⟩ : BufTy).Contents (Elt F)),
    StableHlo.binary main_v0 main_v2 main_v3 (addf : (⟨S1000000x4, .f32⟩ : BufTy).Contents (Elt F) → (⟨S1000000x4, .f32⟩ : BufTy).Contents (Elt F) → (⟨S1000000x4, .f32⟩ : BufTy).Contents (Elt F)),
    StableHlo.TRef.nullary main_call0.cst (constant S_ .f32 0x00000000#32),
    StableHlo.TRef.unary main_call0.cst main_call0.v0 (broadcastInDim S1000000x4 ![] bcast_S_S1000000x4),
    StableHlo.TRef.binary (.of main_v3 : StableHlo.TRef sig ⟨S1000000x4, .f32⟩) main_call0.v0 main_call0.v1 maximumf,
    StableHlo.binary main_v4 main_arg4 main_v5 ((fun l r => Host.dotGeneral dot_S1000000x4_S4x1_S1000000x1_1_0_0_1_n_n none l r) : (⟨S1000000x4, .f32⟩ : BufTy).Contents (Elt F) → (⟨S4x1, .f32⟩ : BufTy).Contents (Elt F) → (⟨S1000000x1, .f32⟩ : BufTy).Contents (Elt F)),
    StableHlo.unary main_arg5 main_v6 (broadcastInDim S1x1 ![1] bcast_S1_S1x1_1 : (⟨S1, .f32⟩ : BufTy).Contents (Elt F) → (⟨S1x1, .f32⟩ : BufTy).Contents (Elt F)),
    StableHlo.unary main_v6 main_v7 (broadcastInDim S1000000x1 ![0, 1] bcast_S1x1_S1000000x1_0_1 : (⟨S1x1, .f32⟩ : BufTy).Contents (Elt F) → (⟨S1000000x1, .f32⟩ : BufTy).Contents (Elt F)),
    StableHlo.binary main_v5 main_v7 main_v8 (addf : (⟨S1000000x1, .f32⟩ : BufTy).Contents (Elt F) → (⟨S1000000x1, .f32⟩ : BufTy).Contents (Elt F) → (⟨S1000000x1, .f32⟩ : BufTy).Contents (Elt F)),
    StableHlo.unary main_arg1 main_v9 ((extractStridedSlice S1x32000000 ![0, 0] · slices_S2x32000000_S1x32000000_0_0) : (⟨S2x32000000, .i32⟩ : BufTy).Contents (Elt F) → (⟨S1x32000000, .i32⟩ : BufTy).Contents (Elt F)),
    StableHlo.reshape main_v9 main_v10 rfl shapeCasts_S1x32000000_S32000000,
    StableHlo.unary main_arg1 main_v11 ((extractStridedSlice S1x32000000 ![1, 0] · slices_S2x32000000_S1x32000000_1_0) : (⟨S2x32000000, .i32⟩ : BufTy).Contents (Elt F) → (⟨S1x32000000, .i32⟩ : BufTy).Contents (Elt F)),
    StableHlo.reshape main_v11 main_v12 rfl shapeCasts_S1x32000000_S32000000,
    StableHlo.TRef.nullary main_call1.c (constantI S_ 32 0#32),
    StableHlo.TRef.unary main_call1.c main_call1.v0 (broadcastInDim S32000000 ![] bcast_S_S32000000),
    StableHlo.TRef.binary (.of main_v10 : StableHlo.TRef sig ⟨S32000000, .i32⟩) main_call1.v0 main_call1.v1 (cmpi .slt),
    StableHlo.TRef.nullary main_call1.c_0 (constantI S_ 32 1000000#32),
    StableHlo.TRef.unary main_call1.c_0 main_call1.v2 (broadcastInDim S32000000 ![] bcast_S_S32000000),
    StableHlo.TRef.binary (.of main_v10 : StableHlo.TRef sig ⟨S32000000, .i32⟩) main_call1.v2 main_call1.v3 addi,
    StableHlo.TRef.ternary main_call1.v1 main_call1.v3 (.of main_v10 : StableHlo.TRef sig ⟨S32000000, .i32⟩) main_call1.call0.v0 select,
    StableHlo.TRef.unary main_call1.call0.v0 main_call1.v5 (broadcastInDim S32000000x1 ![0] bcast_S32000000_S32000000x1_0),
    StableHlo.TRef.nullary main_call1.c_1 (constantI S1 32 999999#32),
    StableHlo.TRef.nullary main_call1.c_2 (constantI S_ 32 0#32),
    StableHlo.TRef.unary main_call1.c_2 main_call1.v6 (broadcastInDim S32000000x1 ![] bcast_S_S32000000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S32000000x1 ![0, 1] bcast_S1x1_S32000000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S32000000x1_S32000000_d1 h_S_),
    StableHlo.TRef.binary (.of main_v8 : StableHlo.TRef sig ⟨S1000000x1, .f32⟩) main_call1.v5 main_call1.v13 (fun x i => Host.gather gather_S1000000x1_S32000000x1_S32000000x1_1_0_n_n_0_1_11 x i),
    StableHlo.TRef.unary main_call1.v12 main_call1.v14 (broadcastInDim S32000000x1 ![0] bcast_S32000000_S32000000x1_0),
    StableHlo.TRef.nullary main_call1.cst (constant S_ .f32 0x7FC00000#32),
    StableHlo.TRef.unary main_call1.cst main_call1.v15 (broadcastInDim S32000000x1 ![] bcast_S_S32000000x1),
    StableHlo.TRef.ternary main_call1.v14 main_call1.v13 main_call1.v15 main_call1.v16 select,
    StableHlo.nullary main_cst (constant S_ .f32 0x00000000#32),
    StableHlo.unary main_cst main_v14 (broadcastInDim S1000000x1 ![] bcast_S_S1000000x1 : (⟨S_, .f32⟩ : BufTy).Contents (Elt F) → (⟨S1000000x1, .f32⟩ : BufTy).Contents (Elt F)),
    StableHlo.unary main_v12 main_v15 (broadcastInDim S32000000x1 ![0] bcast_S32000000_S32000000x1_0 : (⟨S32000000, .i32⟩ : BufTy).Contents (Elt F) → (⟨S32000000x1, .i32⟩ : BufTy).Contents (Elt F)),
    StableHlo.ternary main_v14 main_v15 main_v13 main_v16 ((fun x i u => Host.scatterAdd scatter_S1000000x1_S32000000x1_S32000000x1_1_0_0_1 x i u) : (⟨S1000000x1, .f32⟩ : BufTy).Contents (Elt F) → (⟨S32000000x1, .i32⟩ : BufTy).Contents (Elt F) → (⟨S32000000x1, .f32⟩ : BufTy).Contents (Elt F) → (⟨S1000000x1, .f32⟩ : BufTy).Contents (Elt F)),
    StableHlo.nullary main_cst_0 (constant S_ .f32 0x3F800000#32),
    StableHlo.unary main_cst_0 main_v17 (broadcastInDim S32000000x1 ![] bcast_S_S32000000x1 : (⟨S_, .f32⟩ : BufTy).Contents (Elt F) → (⟨S32000000x1, .f32⟩ : BufTy).Contents (Elt F)),
    StableHlo.nullary main_cst_1 (constant S_ .f32 0x00000000#32),
    StableHlo.unary main_cst_1 main_v18 (broadcastInDim S1000000x1 ![] bcast_S_S1000000x1 : (⟨S_, .f32⟩ : BufTy).Contents (Elt F) → (⟨S1000000x1, .f32⟩ : BufTy).Contents (Elt F)),
    StableHlo.unary main_v12 main_v19 (broadcastInDim S32000000x1 ![0] bcast_S32000000_S32000000x1_0 : (⟨S32000000, .i32⟩ : BufTy).Contents (Elt F) → (⟨S32000000x1, .i32⟩ : BufTy).Contents (Elt F)),
    StableHlo.ternary main_v18 main_v19 main_v17 main_v20 ((fun x i u => Host.scatterAdd scatter_S1000000x1_S32000000x1_S32000000x1_1_0_0_1 x i u) : (⟨S1000000x1, .f32⟩ : BufTy).Contents (Elt F) → (⟨S32000000x1, .i32⟩ : BufTy).Contents (Elt F) → (⟨S32000000x1, .f32⟩ : BufTy).Contents (Elt F) → (⟨S1000000x1, .f32⟩ : BufTy).Contents (Elt F)),
    StableHlo.nullary main_cst_2 (constant S_ .f32 0x3F800000#32),
    StableHlo.unary main_cst_2 main_v21 (broadcastInDim S1000000x1 ![] bcast_S_S1000000x1 : (⟨S_, .f32⟩ : BufTy).Contents (Elt F) → (⟨S1000000x1, .f32⟩ : BufTy).Contents (Elt F)),
    StableHlo.binary main_v20 main_v21 main_v22 (maximumf : (⟨S1000000x1, .f32⟩ : BufTy).Contents (Elt F) → (⟨S1000000x1, .f32⟩ : BufTy).Contents (Elt F) → (⟨S1000000x1, .f32⟩ : BufTy).Contents (Elt F)),
    StableHlo.binary main_v16 main_v22 main_v23 (Host.divf : (⟨S1000000x1, .f32⟩ : BufTy).Contents (Elt F) → (⟨S1000000x1, .f32⟩ : BufTy).Contents (Elt F) → (⟨S1000000x1, .f32⟩ : BufTy).Contents (Elt F)),
    StableHlo.binary main_v23 main_arg6 main_v24 ((fun l r => Host.dotGeneral dot_S1000000x1_S1x1_S1000000x1_1_0_0_1_n_n none l r) : (⟨S1000000x1, .f32⟩ : BufTy).Contents (Elt F) → (⟨S1x1, .f32⟩ : BufTy).Contents (Elt F) → (⟨S1000000x1, .f32⟩ : BufTy).Contents (Elt F)) ]

set_option maxRecDepth 2048 in
/-- The program is that straight line: the functions unfolded at their calls, sequencing reassociated. -/
theorem main_eq (c : Dev nD) : main (F := F) c = seq ops := by
  simp only [main, fn_relu.body, fn_take.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., binary_bufs_sub .., binary_bufs_sub ..⟩

/-- Contents moved to a typed reference's buffer and back are the contents. -/
theorem ofBuf_toBuf {T : BufTy} (x : TRef sig T) (v : T.Contents (Elt F)) : x.ofBuf (x.toBuf v) = v := by
  obtain ⟨r, h, _, _⟩ := x
  subst h
  rfl

/-- A typed reference at a literal buffer moves contents by the identity: the five buffers where a function's
    operations meet the program's own. -/
theorem ofBuf_v3 (v : FVec F S1000000x4 .f32) :
    (.of main_v3 : TRef sig ⟨S1000000x4, .f32⟩).ofBuf (Val := Elt F) v = v := rfl
theorem toBuf_v4 (v : FVec F S1000000x4 .f32) :
    ((.of main_v4 : TRef sig ⟨S1000000x4, .f32⟩).toBuf (Val := Elt F) v : FVec F S1000000x4 .f32) = v := rfl
theorem ofBuf_v8 (v : FVec F S1000000x1 .f32) :
    (.of main_v8 : TRef sig ⟨S1000000x1, .f32⟩).ofBuf (Val := Elt F) v = v := rfl
theorem ofBuf_v10 (v : IVec S32000000 32) :
    (.of main_v10 : TRef sig ⟨S32000000, .i32⟩).ofBuf (Val := Elt F) v = v := rfl
theorem toBuf_v13 (v : FVec F S32000000x1 .f32) :
    ((.of main_v13 : TRef sig ⟨S32000000x1, .f32⟩).toBuf (Val := Elt F) v : FVec F S32000000x1 .f32) = v := rfl

/-- The fold read at the result buffer is the composed term. -/
theorem out_eq (V : Valuation τ sig (Elt F)) :
    after ops V (Proc.devRef .tc main_v24)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  after_results_simp
  simp only [ofBuf_toBuf, ofBuf_v3, toBuf_v4, ofBuf_v8, ofBuf_v10, toBuf_v13]
  rfl

/-- No operation writes an argument's buffer: the fold leaves each as it was. -/
theorem arg0_eq (V : Valuation τ sig (Elt F)) :
    after ops V (Proc.devRef .tc main_arg0) = V (Proc.devRef .tc main_arg0) := by
  after_results_simp
theorem arg1_eq (V : Valuation τ sig (Elt F)) :
    after ops V (Proc.devRef .tc main_arg1) = V (Proc.devRef .tc main_arg1) := by
  after_results_simp
theorem arg2_eq (V : Valuation τ sig (Elt F)) :
    after ops V (Proc.devRef .tc main_arg2) = V (Proc.devRef .tc main_arg2) := by
  after_results_simp
theorem arg3_eq (V : Valuation τ sig (Elt F)) :
    after ops V (Proc.devRef .tc main_arg3) = V (Proc.devRef .tc main_arg3) := by
  after_results_simp
theorem arg4_eq (V : Valuation τ sig (Elt F)) :
    after ops V (Proc.devRef .tc main_arg4) = V (Proc.devRef .tc main_arg4) := by
  after_results_simp
theorem arg5_eq (V : Valuation τ sig (Elt F)) :
    after ops V (Proc.devRef .tc main_arg5) = V (Proc.devRef .tc main_arg5) := by
  after_results_simp
theorem arg6_eq (V : Valuation τ sig (Elt F)) :
    after ops V (Proc.devRef .tc main_arg6) = V (Proc.devRef .tc main_arg6) := by
  after_results_simp

end Fold

variable (m : (ℓ : Loc nD τ sig) → Buf (Elt F) ℓ) (ρ : Dev nD → PrngReg)

/-- Every weakly fair execution of the reference terminates without a fault, its result at `refOut` of the arguments,
    the arguments as launched. -/
theorem run : θ_run (defs (F := F)) (onTc (τ := τ) (main (F := F))) ⟨m, fun _ => 0, ρ⟩ (fun r => ∀ c : Dev nD,
      r.2.mem ((c.tc : Thread nD τ).loc main_v24) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v24).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (StableHlo.run_seq scopedRefs_eq scopedSems_eq defs main (fun _ => ops) main_eq (fun _ => ops_sub) m ρ)

end Cert.ReferenceIdeal.RefRun

end
-- ==== Proof.RefFeat.lean ====
/-
  The reference's node features read at a node: the perceptron of the node's input.

  Each matrix product is read at an index as the sum over its one contracted axis of the operands' products (the first
  has a single position, the second the four hidden units); each bias and the zero of the positive part is a broadcast
  read at its source index. What remains is the specification's expression up to the order of one addition.
-/
import proofs.«410370_j6923487281238_3_alg».proof.Proof.RefTerms
import proofs.«410370_j6923487281238_3_alg».proof.Proof.Spec
import Idealize.ShloMosaic.PureOps.Ideal.Laws
import Idealize.ShloMosaic.Lib.Pipeline.Value
import Idealize.ShloMosaic.Lib.ValueLayout

noncomputable section

namespace Cert.ReferenceIdeal.RefFeat

open Idealize.ShloMosaic Idealize.ShloMosaic.ValueIdx Cert.ReferenceIdeal Cert.ReferenceIdeal.RefTerms
open scoped BigOperators

/-! ## The first product's operand indices -/

theorem lhs_dot1_0 (j : S1000000x4.Idx) (c : dot_S1000000x1_S1x4_S1000000x4_1_0_0_1_n_n.contr.Idx) :
    (dot_S1000000x1_S1x4_S1000000x4_1_0_0_1_n_n.lhsIdx j c 0).val = (j 0).val := by
  simp [DotDims.lhsIdx, dot_S1000000x1_S1x4_S1000000x4_1_0_0_1_n_n]; rfl

theorem lhs_dot1_1 (j : S1000000x4.Idx) (c : dot_S1000000x1_S1x4_S1000000x4_1_0_0_1_n_n.contr.Idx) :
    (dot_S1000000x1_S1x4_S1000000x4_1_0_0_1_n_n.lhsIdx j c 1).val = (c ⟨0, by decide⟩).val :=
  DotDims.lhsIdx_val_of_single _ rfl j c

theorem rhs_dot1_0 (j : S1000000x4.Idx) (c : dot_S1000000x1_S1x4_S1000000x4_1_0_0_1_n_n.contr.Idx) :
    (dot_S1000000x1_S1x4_S1000000x4_1_0_0_1_n_n.rhsIdx j c 0).val = (c ⟨0, by decide⟩).val :=
  DotDims.rhsIdx_val_of_single _ rfl j c

theorem rhs_dot1_1 (j : S1000000x4.Idx) (c : dot_S1000000x1_S1x4_S1000000x4_1_0_0_1_n_n.contr.Idx) :
    (dot_S1000000x1_S1x4_S1000000x4_1_0_0_1_n_n.rhsIdx j c 1).val = (j 1).val := by
  simp [DotDims.rhsIdx, dot_S1000000x1_S1x4_S1000000x4_1_0_0_1_n_n]; rfl

/-- The input times the first weights at node `n` and hidden unit `k`: one product, the contracted axis having one
    position. -/
theorem dot1_apply (a0 : FVec Ideal S1000000x1 .f32) (a2 : FVec Ideal S1x4 .f32) (n : Fin 1000000) (k : Fin 4) :
    Host.dotGeneral (F := Ideal) dot_S1000000x1_S1x4_S1000000x4_1_0_0_1_n_n none a0 a2 (ix2 n k)
      = a0 (ix2 n (0 : Fin 1)) * a2 (ix2 (0 : Fin 1) k) := by
  show FloatOps.dotGeneral _ none _ a0 a2 (ix2 n k) = _
  rw [Ideal.dotGeneral_apply,
    ← Equiv.sum_comp (contrEquiv1 dot_S1000000x1_S1x4_S1000000x4_1_0_0_1_n_n 1 rfl rfl).symm, Fin.sum_univ_one]
  have hc := contrEquiv1_symm_val dot_S1000000x1_S1x4_S1000000x4_1_0_0_1_n_n 1 rfl rfl (0 : Fin 1)
  have hl : dot_S1000000x1_S1x4_S1000000x4_1_0_0_1_n_n.lhsIdx (ix2 n k)
      ((contrEquiv1 dot_S1000000x1_S1x4_S1000000x4_1_0_0_1_n_n 1 rfl rfl).symm 0) = ix2 n (0 : Fin 1) := by
    funext ax; apply Fin.ext
    match ax with
    | ⟨0, _⟩ => exact lhs_dot1_0 _ _
    | ⟨1, _⟩ => exact (lhs_dot1_1 _ _).trans hc
  have hr : dot_S1000000x1_S1x4_S1000000x4_1_0_0_1_n_n.rhsIdx (ix2 n k)
      ((contrEquiv1 dot_S1000000x1_S1x4_S1000000x4_1_0_0_1_n_n 1 rfl rfl).symm 0) = ix2 (0 : Fin 1) k := by
    funext ax; apply Fin.ext
    match ax with
    | ⟨0, _⟩ => exact (rhs_dot1_0 _ _).trans hc
    | ⟨1, _⟩ => exact rhs_dot1_1 _ _
  rw [hl, hr]

/-! ## The second product's operand indices -/

theorem lhs_dot2_0 (j : S1000000x1.Idx) (c : dot_S1000000x4_S4x1_S1000000x1_1_0_0_1_n_n.contr.Idx) :
    (dot_S1000000x4_S4x1_S1000000x1_1_0_0_1_n_n.lhsIdx j c 0).val = (j 0).val := by
  simp [DotDims.lhsIdx, dot_S1000000x4_S4x1_S1000000x1_1_0_0_1_n_n]; rfl

theorem lhs_dot2_1 (j : S1000000x1.Idx) (c : dot_S1000000x4_S4x1_S1000000x1_1_0_0_1_n_n.contr.Idx) :
    (dot_S1000000x4_S4x1_S1000000x1_1_0_0_1_n_n.lhsIdx j c 1).val = (c ⟨0, by decide⟩).val :=
  DotDims.lhsIdx_val_of_single _ rfl j c

theorem rhs_dot2_0 (j : S1000000x1.Idx) (c : dot_S1000000x4_S4x1_S1000000x1_1_0_0_1_n_n.contr.Idx) :
    (dot_S1000000x4_S4x1_S1000000x1_1_0_0_1_n_n.rhsIdx j c 0).val = (c ⟨0, by decide⟩).val :=
  DotDims.rhsIdx_val_of_single _ rfl j c

theorem rhs_dot2_1 (j : S1000000x1.Idx) (c : dot_S1000000x4_S4x1_S1000000x1_1_0_0_1_n_n.contr.Idx) :
    (dot_S1000000x4_S4x1_S1000000x1_1_0_0_1_n_n.rhsIdx j c 1).val = (j 1).val := by
  have hj := idx2_lt1 j
  simp [DotDims.rhsIdx, dot_S1000000x4_S4x1_S1000000x1_1_0_0_1_n_n]; omega

/-- The hidden layer times the second weights at node `n`: the sum over the four hidden units. -/
theorem dot2_apply (h : FVec Ideal S1000000x4 .f32) (a4 : FVec Ideal S4x1 .f32) (n : Fin 1000000) :
    Host.dotGeneral (F := Ideal) dot_S1000000x4_S4x1_S1000000x1_1_0_0_1_n_n none h a4 (ix2 n (0 : Fin 1))
      = ∑ k : Fin 4, h (ix2 n k) * a4 (ix2 k (0 : Fin 1)) := by
  show FloatOps.dotGeneral _ none _ h a4 (ix2 n (0 : Fin 1)) = _
  rw [Ideal.dotGeneral_apply,
    ← Equiv.sum_comp (contrEquiv1 dot_S1000000x4_S4x1_S1000000x1_1_0_0_1_n_n 4 rfl rfl).symm]
  refine Finset.sum_congr rfl fun k _ => ?_
  have hc := contrEquiv1_symm_val dot_S1000000x4_S4x1_S1000000x1_1_0_0_1_n_n 4 rfl rfl k
  have hl : dot_S1000000x4_S4x1_S1000000x1_1_0_0_1_n_n.lhsIdx (ix2 n (0 : Fin 1))
      ((contrEquiv1 dot_S1000000x4_S4x1_S1000000x1_1_0_0_1_n_n 4 rfl rfl).symm k) = ix2 n k := by
    funext ax; apply Fin.ext
    match ax with
    | ⟨0, _⟩ => exact lhs_dot2_0 _ _
    | ⟨1, _⟩ => exact (lhs_dot2_1 _ _).trans hc
  have hr : dot_S1000000x4_S4x1_S1000000x1_1_0_0_1_n_n.rhsIdx (ix2 n (0 : Fin 1))
      ((contrEquiv1 dot_S1000000x4_S4x1_S1000000x1_1_0_0_1_n_n 4 rfl rfl).symm k) = ix2 k (0 : Fin 1) := by
    funext ax; apply Fin.ext
    match ax with
    | ⟨0, _⟩ => exact (rhs_dot2_0 _ _).trans hc
    | ⟨1, _⟩ => exact rhs_dot2_1 _ _
  rw [hl, hr]

/-! ## The broadcasts at an index -/

/-- The first bias, broadcast over the nodes, at node `n` and hidden unit `k`. -/
theorem bias1_apply (a3 : FVec Ideal S4 .f32) (n : Fin 1000000) (k : Fin 4) :
    broadcastInDim S1000000x4 ![0, 1] Facts₀.bcast_S1x4_S1000000x4_0_1
      (broadcastInDim S1x4 ![1] Facts₀.bcast_S4_S1x4_1 a3) (ix2 n k) = a3 (ix1 k) := by
  rw [broadcastInDim_apply _ _ _ (ix2 n k) (ix2 (0 : Fin 1) k) (fun a => by
      match a with
      | ⟨0, _⟩ => rfl
      | ⟨1, _⟩ => rfl),
    broadcastInDim_apply _ _ _ (ix2 (0 : Fin 1) k) (ix1 k) (fun a => by
      match a with
      | ⟨0, _⟩ => rfl)]

/-- The second bias, broadcast over the nodes, at node `n`. -/
theorem bias2_apply (a5 : FVec Ideal S1 .f32) (n : Fin 1000000) :
    broadcastInDim S1000000x1 ![0, 1] Facts₀.bcast_S1x1_S1000000x1_0_1
      (broadcastInDim S1x1 ![1] Facts₀.bcast_S1_S1x1_1 a5) (ix2 n (0 : Fin 1)) = a5 (ix1 (0 : Fin 1)) := by
  rw [broadcastInDim_apply _ _ _ (ix2 n (0 : Fin 1)) (ix2 (0 : Fin 1) (0 : Fin 1)) (fun a => by
      match a with
      | ⟨0, _⟩ => rfl
      | ⟨1, _⟩ => rfl),
    broadcastInDim_apply _ _ _ (ix2 (0 : Fin 1) (0 : Fin 1)) (ix1 (0 : Fin 1)) (fun a => by
      match a with
      | ⟨0, _⟩ => rfl)]

/-- The zero constant, broadcast over the nodes and hidden units, is zero everywhere. -/
theorem zero_apply (j : S1000000x4.Idx) :
    broadcastInDim S1000000x4 ![] Facts₀.bcast_S_S1000000x4 (constant (F := Ideal) S_ .f32 0x00000000#32) j = 0 := by
  rw [broadcastInDim_apply _ _ _ j ix0 (fun a => a.elim0), constant_apply, Ideal.ofBits_zero_f32]

/-! ## The two layers at a node -/

/-- The hidden layer at node `n` and unit `k`: the positive part of the affine function of the input. -/
theorem hidden_apply (a0 : FVec Ideal S1000000x1 .f32) (a2 : FVec Ideal S1x4 .f32) (a3 : FVec Ideal S4 .f32)
    (n : Fin 1000000) (k : Fin 4) :
    maximumf
        (addf (Host.dotGeneral (F := Ideal) dot_S1000000x1_S1x4_S1000000x4_1_0_0_1_n_n none a0 a2)
          (broadcastInDim S1000000x4 ![0, 1] Facts₀.bcast_S1x4_S1000000x4_0_1
            (broadcastInDim S1x4 ![1] Facts₀.bcast_S4_S1x4_1 a3)))
        (broadcastInDim S1000000x4 ![] Facts₀.bcast_S_S1000000x4 (constant (F := Ideal) S_ .f32 0x00000000#32)) (ix2 n k)
      = max (a0 (ix2 n (0 : Fin 1)) * a2 (ix2 (0 : Fin 1) k) + a3 (ix1 k)) 0 := by
  rw [maximumf_apply, addf_apply, dot1_apply, bias1_apply, zero_apply]

/-- The reference's feature array at node `n` is the specification's feature. -/
theorem featArr_apply (a0 : FVec Ideal S1000000x1 .f32) (a2 : FVec Ideal S1x4 .f32) (a3 : FVec Ideal S4 .f32)
    (a4 : FVec Ideal S4x1 .f32) (a5 : FVec Ideal S1 .f32) (n : Fin 1000000) :
    featArr (F := Ideal) a0 a2 a3 a4 a5 (ix2 n (0 : Fin 1)) = Cert.Spec.feat a0 a2 a3 a4 a5 n := by
  unfold featArr
  dsimp only
  rw [addf_apply, dot2_apply, bias2_apply]
  unfold Cert.Spec.feat Cert.Spec.mlp
  rw [add_comm]
  refine congrArg (a5 (ix1 (0 : Fin 1)) + ·) (Finset.sum_congr rfl fun k _ => ?_)
  rw [hidden_apply]

end Cert.ReferenceIdeal.RefFeat

end
-- ==== Proof.RefValue.lean ====
/-
  The reference's term, read at a node: the mean of the arriving features times the weight.

  The road. The two rows of the edge array are read as vectors of sources and targets. Under the hypothesis that every
  source is a node, the take of the feature table at the sources reads, at each edge, the feature of the edge's source:
  the wrap of negative positions does nothing, the range test passes, and the clamp of the start index does nothing. The
  adding scatter into zeros reads, at a node, the sum over the edges whose target, read signed, is that node. The
  quotient, the larger of the count and one, and the closing product over a contracted axis of extent one are read
  entry by entry.
-/
import proofs.«410370_j6923487281238_3_alg».proof.Proof.RefTerms
import proofs.«410370_j6923487281238_3_alg».proof.Proof.RefFeat
import proofs.«410370_j6923487281238_3_alg».proof.Proof.Spec
import Idealize.ShloMosaic.PureOps.Ideal.Laws
import Idealize.ShloMosaic.Lib.Pipeline.Value
import Idealize.ShloMosaic.Lib.StableHlo.Predicate
import Idealize.ShloMosaic.Lib.IdealHost

noncomputable section

namespace Cert.ReferenceIdeal.RefValue

open Idealize.ShloMosaic Idealize.ShloMosaic.ValueIdx Cert.ReferenceIdeal Cert.ReferenceIdeal.RefTerms
open Cert.ReferenceIdeal.Facts₀ Cert.ReferenceIdeal.Facts
open scoped BigOperators

/-! ## The two rows of the edge array -/

/-- The source vector at edge e is row 0 of the edge array at column e. -/
theorem srcVec_apply (a1 : IVec S2x32000000 32) (e : Fin 32000000) :
    srcVec a1 (ix1 e) = a1 (ix2 (0 : Fin 2) e) := by
  unfold srcVec
  refine (shapeCast_apply _ shapeCasts_S1x32000000_S32000000 (ix1 e) (ix2 (0 : Fin 1) e) ?_).trans ?_
  · rw [Shape.rowMajor_val_two, Shape.rowMajor_val_one]
    show 0 * 32000000 + e.val = e.val
    omega
  · refine extractStridedSlice_apply _ a1 slices_S2x32000000_S1x32000000_0_0 (ix2 (0 : Fin 1) e) (ix2 (0 : Fin 2) e) ?_
    intro a
    match a with
    | ⟨0, _⟩ => rfl
    | ⟨1, _⟩ => show e.val = 0 + e.val; omega

/-- The target vector at edge e is row 1 of the edge array at column e. -/
theorem dstVec_apply (a1 : IVec S2x32000000 32) (e : Fin 32000000) :
    dstVec a1 (ix1 e) = a1 (ix2 (1 : Fin 2) e) := by
  unfold dstVec
  refine (shapeCast_apply _ shapeCasts_S1x32000000_S32000000 (ix1 e) (ix2 (0 : Fin 1) e) ?_).trans ?_
  · rw [Shape.rowMajor_val_two, Shape.rowMajor_val_one]
    show 0 * 32000000 + e.val = e.val
    omega
  · refine extractStridedSlice_apply _ a1 slices_S2x32000000_S1x32000000_1_0 (ix2 (0 : Fin 1) e) (ix2 (1 : Fin 2) e) ?_
    intro a
    match a with
    | ⟨0, _⟩ => rfl
    | ⟨1, _⟩ => show e.val = 0 + e.val; omega

/-! ## The adding scatter -/

/-- The adding scatter's dimension numbers. -/
abbrev scD : ScatterDims S1000000x1 S32000000x1 S32000000x1 := scatter_S1000000x1_S32000000x1_S32000000x1_1_0_0_1

/-- An update lands on a slot exactly when, on every axis, its start plus its window coordinate is the slot's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  by_cases h : ∀ a, 0 ≤ d.start j idx a + d.window j a ∧ d.start j idx a + d.window j a < s.size a
  · rw [dif_pos h]
    constructor
    · intro e a
      have e' := congrFun (Option.some.inj e) a
      have e'' := congrArg Fin.val e'
      simp only at e''
      have := (h a).1
      omega
    · intro hall
      congr 1
      funext a
      apply Fin.ext
      have := hall a
      simp only
      omega
  · rw [dif_neg h]
    constructor
    · intro e; cases e
    · intro hall
      exfalso
      apply h
      intro a
      have := hall a
      have := (i a).isLt
      omega

/-- On the node axis the window of an update starts at its target word, read signed. -/
theorem scD_start0 (idx : IVec S32000000x1 32) (j : S32000000x1.Idx) :
    scD.start j idx (0 : Fin 2) = (idx (ix2 (j 0 : Fin 32000000) (0 : Fin 1))).toInt := by
  unfold ScatterDims.start
  rw [dif_pos (show (0 : Fin 2) ∈ scD.scatterDimsToOperandDims from List.mem_singleton.mpr rfl)]
  congr 2
  funext b
  apply Fin.ext
  match b with
  | ⟨0, _⟩ => rfl
  | ⟨1, _⟩ => rfl

/-- On the unit axis the window starts at zero. -/
theorem scD_start1 (idx : IVec S32000000x1 32) (j : S32000000x1.Idx) : scD.start j idx (1 : Fin 2) = 0 := by
  unfold ScatterDims.start
  rw [dif_neg (show (1 : Fin 2) ∉ scD.scatterDimsToOperandDims from by decide)]

/-- The node axis is inserted: its window coordinate is zero. -/
theorem scD_window0 (j : S32000000x1.Idx) : scD.window j (0 : Fin 2) = 0 := by
  unfold ScatterDims.window
  rw [dif_neg (show (0 : Fin 2) ∉ scD.sKept from by decide)]

/-- The unit axis has the one window coordinate zero. -/
theorem scD_window1 (j : S32000000x1.Idx) : scD.window j (1 : Fin 2) = 0 := by
  unfold ScatterDims.window
  rw [dif_pos (show (1 : Fin 2) ∈ scD.sKept from by decide)]
  have := idx2_lt1 j
  show (j 1).val = 0
  omega

/-- An update at row `j 0` lands on slot `(n, 0)` exactly when its target word, read signed, is `n`. -/
theorem scD_resultIdx_iff (idx : IVec S32000000x1 32) (j : S32000000x1.Idx) (n : Fin 1000000) :
    scD.resultIdx? j idx = some (ix2 n (0 : Fin 1)) ↔ (idx (ix2 (j 0 : Fin 32000000) (0 : Fin 1))).toInt = (n.val : ℤ) := by
  rw [resultIdx?_eq_some_iff, Fin.forall_fin_two, scD_start0, scD_start1, scD_window0, scD_window1]
  constructor
  · intro h; have := h.1; simpa using this
  · intro h; exact ⟨by simpa using h, by simp⟩

/-- A vector laid down an [n × 1] column reads, at (e, c), the vector at e. -/
theorem col_apply {α : Type} {n : Nat} (h : (⟨1, ![n]⟩ : Shape).BroadcastsInDim ⟨2, ![n, 1]⟩ ![0])
    (v : (⟨1, ![n]⟩ : Shape).Idx → α) (j : (⟨2, ![n, 1]⟩ : Shape).Idx) :
    broadcastInDim ⟨2, ![n, 1]⟩ ![0] h v j = v (ix1 (j 0 : Fin n)) := by
  simp only [broadcastInDim]
  congr 1
  funext a
  obtain rfl : a = 0 := Subsingleton.elim _ _
  apply Fin.ext
  have hj := idx2_lt0 j
  split
  · next h1 => change n = 1 at h1; show (0 : Nat) = (j 0).val; omega
  · rfl

/-- At exact values the adding scatter is, at a slot, the operand there plus the updates that land there. -/
theorem hostScatterAdd_apply {s si su : Shape} (d : ScatterDims s si su) {w : Nat} (x : FVec Ideal s .f32) (idx : IVec si w)
    (upd : FVec Ideal su .f32) (i : s.Idx) :
    Host.scatterAdd d x idx upd i = x i + ∑ j, if d.resultIdx? j idx = some i then upd j else 0 := by
  unfold Host.scatterAdd
  rw [Ideal.hostScatterAdd_def]
  unfold Ideal.hostScatterAdd
  rw [Finset.sum_filter]

/-- The adding scatter into zeros, at slot (n, 0): the sum of the updates whose target word, read signed, is n. -/
theorem scatR_apply (d : IVec S32000000 32) (u : FVec Ideal S32000000x1 .f32) (n : Fin 1000000) :
    scatR (F := Ideal) d u (ix2 n (0 : Fin 1))
      = ∑ e : Fin 32000000, if (d (ix1 e)).toInt = (n.val : ℤ) then u (ix2 e (0 : Fin 1)) else 0 := by
  unfold scatR
  rw [hostScatterAdd_apply, StableHlo.Predicate.bcast_scalar _ h_S_, constant_apply, Ideal.ofBits_zero_f32, zero_add, sum_idx2]
  refine Finset.sum_congr rfl fun e _ => ?_
  rw [Fin.sum_univ_one]
  refine if_congr ?_ rfl rfl
  rw [scD_resultIdx_iff, col_apply]

/-! ## The take -/

/-- A word whose signed value is a node id reads the same unsigned. -/
theorem toNat_of_toInt_range (w : BitVec 32) (h0 : 0 ≤ w.toInt) (h1 : w.toInt < 1000000) :
    w.toNat < 1000000 ∧ w.toInt = (w.toNat : ℤ) := by
  have hw := w.isLt
  have hc := BitVec.toInt_eq_toNat_cond w
  split at hc <;> omega

/-- A position that is a node id is not moved by the wrap of negative positions. -/
theorem wrap_apply (s : IVec S32000000 32) (e : Fin 32000000)
    (h0 : 0 ≤ (s (ix1 e)).toInt) (h1 : (s (ix1 e)).toInt < 1000000) :
    select (cmpi .slt s (broadcastInDim S32000000 ![] bcast_S_S32000000 (constantI S_ 32 0#32)))
      (addi s (broadcastInDim S32000000 ![] bcast_S_S32000000 (constantI S_ 32 1000000#32))) s (ix1 e) = s (ix1 e) := by
  obtain ⟨hlt, _⟩ := toNat_of_toInt_range _ h0 h1
  show Scalar.select (IntOp.cmpi .slt (s (ix1 e)) 0#32) _ (s (ix1 e)) = s (ix1 e)
  have hz : IntOp.cmpi .slt (s (ix1 e)) 0#32 = 0#1 := by
    apply eq_zero_of_ne_one
    intro hc
    have := (StableHlo.Predicate.slt_iff_toNat (by omega) (by decide)).1 hc
    have h00 : (0#32 : BitVec 32).toNat = 0 := rfl
    omega
  rw [hz, select_zero]

/-- A position that is a node id passes the test 0 ≤ · ≤ 999999. -/
theorem inRange_apply (p : IVec S32000000x1 32) (j : S32000000x1.Idx) (h0 : 0 ≤ (p j).toInt) (h1 : (p j).toInt < 1000000) :
    andi (cmpi .sge p (broadcastInDim S32000000x1 ![] bcast_S_S32000000x1 (constantI S_ 32 0#32)))
      (cmpi .sle p (broadcastInDim S32000000x1 ![0, 1] bcast_S1x1_S32000000x1_0_1
        (broadcastInDim S1x1 ![1] bcast_S1_S1x1_1 (constantI S1 32 999999#32)))) j = 1#1 := by
  obtain ⟨hlt, _⟩ := toNat_of_toInt_range _ h0 h1
  show IntOp.andi (IntOp.cmpi .sge (p j) 0#32) (IntOp.cmpi .sle (p j) 999999#32) = 1#1
  have h00 : (0#32 : BitVec 32).toNat = 0 := rfl
  have h99 : (999999#32 : BitVec 32).toNat = 999999 := rfl
  exact IntOp.andi_eq_one.2 ⟨(StableHlo.Predicate.sge_iff_toNat (by omega) (by omega)).2 (by omega),
    (StableHlo.Predicate.sle_iff_toNat (by omega) (by omega)).2 (by omega)⟩

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- The reduction by `and` from 1 of a mask that is 1 everywhere is 1 everywhere. -/
theorem reduce_andi_ones (x : IVec S32000000x1 1) (hx : ∀ j, x j = 1#1) (i : S32000000.Idx) :
    Host.reduce IntOp.andi x (constantI S_ 1 1#1) reducesTo_S32000000x1_S32000000_d1 h_S_ i = 1#1 := by
  rw [Host.reduce_eq_foldl]
  exact foldl_andi_ones x hx _

/-- The take's dimension numbers. -/
abbrev gaD : GatherDims S1000000x1 S32000000x1 S32000000x1 := gather_S1000000x1_S32000000x1_S32000000x1_1_0_n_n_0_1_11

/-- A gather reads the operand at the operand index of the result index. -/
theorem gather_apply {α : Type} {s si t : Shape} {w : Nat} (d : GatherDims s si t) (x : s.Idx → α) (idx : IVec si w) (j : t.Idx) :
    Host.gather d x idx j = x (d.operandIdx j idx) := rfl

/-- With the start word of row e a node id, the take reads the table's row of that id: the clamp does nothing. -/
theorem gaD_operandIdx (idx : IVec S32000000x1 32) (e : Fin 32000000)
    (h0 : 0 ≤ (idx (ix2 e (0 : Fin 1))).toInt) (h1 : (idx (ix2 e (0 : Fin 1))).toInt < 1000000) :
    gaD.operandIdx (ix2 e (0 : Fin 1)) idx
      = ix2 (⟨(idx (ix2 e (0 : Fin 1))).toInt.toNat, by omega⟩ : Fin 1000000) (0 : Fin 1) := by
  funext a
  apply Fin.ext
  match a with
  | ⟨0, _⟩ =>
    show gaD.start (ix2 e (0 : Fin 1)) idx 0 + gaD.batchCoord (ix2 e (0 : Fin 1)) 0 + gaD.offCoord (ix2 e (0 : Fin 1)) 0
      = (idx (ix2 e (0 : Fin 1))).toInt.toNat
    rw [GatherDims.batchCoord_eq_zero _ _ _ (show (0 : Fin 2) ∉ gaD.operandBatchingDims from List.not_mem_nil),
      GatherDims.offCoord_eq_zero _ _ _ (show (0 : Fin 2) ∉ gaD.sKept from by decide)]
    unfold GatherDims.start
    rw [dif_pos (show (0 : Fin 2) ∈ gaD.startIndexMap from List.mem_singleton.mpr rfl)]
    have hsi : gaD.siIdx (ix2 e (0 : Fin 1)) ⟨List.idxOf (0 : Fin 2) gaD.startIndexMap,
        List.idxOf_lt_length_iff.2 (List.mem_singleton.mpr rfl)⟩ = ix2 e (0 : Fin 1) := by
      funext b
      apply Fin.ext
      match b with
      | ⟨0, _⟩ => rfl
      | ⟨1, _⟩ => rfl
    rw [hsi]
    show min (idx (ix2 e (0 : Fin 1))).toInt.toNat (1000000 - 1) + 0 + 0 = _
    omega
  | ⟨1, _⟩ =>
    have := idx2_lt1 (gaD.operandIdx (ix2 e (0 : Fin 1)) idx)
    show (gaD.operandIdx (ix2 e (0 : Fin 1)) idx 1).val = 0
    omega

/-- With every position a node id, the take of the table's rows reads, at row e, the table's row of that id. -/
theorem takeR_apply (tbl : FVec Ideal S1000000x1 .f32) (s : IVec S32000000 32)
    (hs : ∀ e : Fin 32000000, 0 ≤ (s (ix1 e)).toInt ∧ (s (ix1 e)).toInt < 1000000) (e : Fin 32000000) :
    takeR tbl s (ix2 e (0 : Fin 1))
      = tbl (ix2 (⟨(s (ix1 e)).toInt.toNat, by have := hs e; omega⟩ : Fin 1000000) (0 : Fin 1)) := by
  have hw : select (cmpi .slt s (broadcastInDim S32000000 ![] bcast_S_S32000000 (constantI S_ 32 0#32)))
      (addi s (broadcastInDim S32000000 ![] bcast_S_S32000000 (constantI S_ 32 1000000#32))) s = s := by
    funext i
    rw [eq_ix1 i]
    exact wrap_apply s _ (hs _).1 (hs _).2
  unfold takeR
  dsimp only
  rw [hw]
  generalize hp : broadcastInDim S32000000x1 ![0] bcast_S32000000_S32000000x1_0 s = p
  have hpj : ∀ j : S32000000x1.Idx, p j = s (ix1 (j 0 : Fin 32000000)) := fun j => by rw [← hp, col_apply]
  have hr : ∀ j : S32000000x1.Idx, 0 ≤ (p j).toInt ∧ (p j).toInt < 1000000 := fun j => by rw [hpj]; exact hs _
  rw [select_apply, col_apply, reduce_andi_ones _ (fun j => inRange_apply p j (hr j).1 (hr j).2), select_one, gather_apply,
    gaD_operandIdx p e (hr _).1 (hr _).2]
  congr 2
  apply Fin.ext
  show (p (ix2 e (0 : Fin 1))).toInt.toNat = (s (ix1 e)).toInt.toNat
  rw [hpj]

/-! ## The closing product, and the result -/

/-- The last product's dimension numbers: node rows by a contracted axis of extent one. -/
abbrev doD : DotDims S1000000x1 S1x1 S1000000x1 := dot_S1000000x1_S1x1_S1000000x1_1_0_0_1_n_n

/-- At exact values a host product whose contraction is one axis of extent one is the one product of the operands' entries. -/
theorem dotGeneral_unit_apply {sl sr so : Shape} {φ₁ φ₂ : FTy} (d : DotDims sl sr so) (hr : d.contr.rank = 1)
    (hs : d.contr.size ⟨0, by omega⟩ = 1) (lhs : FVec Ideal sl φ₁) (rhs : FVec Ideal sr φ₂) (j : so.Idx) :
    Host.dotGeneral d none lhs rhs j
      = lhs (d.lhsIdx j ((contrEquiv1 d 1 hr hs).symm 0)) * rhs (d.rhsIdx j ((contrEquiv1 d 1 hr hs).symm 0)) := by
  show FloatOps.dotGeneral d none .single lhs rhs j = _
  rw [Ideal.dotGeneral_apply]
  exact Fintype.sum_eq_single _ fun k hk => absurd ((contrEquiv1 d 1 hr hs).injective (Subsingleton.elim _ _)) hk

/-- The left operand of the last product is read at the result's own index. -/
theorem doD_lhsIdx (n : Fin 1000000) (k : doD.contr.Idx) : doD.lhsIdx (ix2 n (0 : Fin 1)) k = ix2 n (0 : Fin 1) := by
  funext a
  apply Fin.ext
  match a with
  | ⟨0, _⟩ => rfl
  | ⟨1, _⟩ =>
    have := idx2_lt1 (doD.lhsIdx (ix2 n (0 : Fin 1)) k)
    show (doD.lhsIdx (ix2 n (0 : Fin 1)) k 1).val = 0
    omega

/-- The right operand of the last product, a one by one array, is read at its one index. -/
theorem doD_rhsIdx (n : Fin 1000000) (k : doD.contr.Idx) :
    doD.rhsIdx (ix2 n (0 : Fin 1)) k = ix2 (0 : Fin 1) (0 : Fin 1) := by
  funext a
  apply Fin.ext
  match a with
  | ⟨0, _⟩ =>
    have := idx2_lt0 (doD.rhsIdx (ix2 n (0 : Fin 1)) k)
    show (doD.rhsIdx (ix2 n (0 : Fin 1)) k 0).val = 0
    omega
  | ⟨1, _⟩ =>
    have := idx2_lt1 (doD.rhsIdx (ix2 n (0 : Fin 1)) k)
    show (doD.rhsIdx (ix2 n (0 : Fin 1)) k 1).val = 0
    omega

/-- With every source a node, the reference's result at node `n` is the specification's. -/
theorem refOut_apply (a0 : FVec Ideal S1000000x1 .f32) (a1 : IVec S2x32000000 32) (a2 : FVec Ideal S1x4 .f32)
    (a3 : FVec Ideal S4 .f32) (a4 : FVec Ideal S4x1 .f32) (a5 : FVec Ideal S1 .f32) (a6 : FVec Ideal S1x1 .f32)
    (hs : Cert.Spec.SrcInRange a1) (n : Fin 1000000) :
    refOut (F := Ideal) a0 a1 a2 a3 a4 a5 a6 (ix2 n (0 : Fin 1)) = Cert.Spec.outAt a0 a1 a2 a3 a4 a5 a6 n := by
  have hsrc : ∀ e : Fin 32000000, 0 ≤ (srcVec a1 (ix1 e)).toInt ∧ (srcVec a1 (ix1 e)).toInt < 1000000 := fun e => by
    rw [srcVec_apply]; exact hs e
  have hmsg : ∀ e : Fin 32000000, takeR (featArr (F := Ideal) a0 a2 a3 a4 a5) (srcVec a1) (ix2 e (0 : Fin 1))
      = Cert.Spec.atNode (Cert.Spec.feat a0 a2 a3 a4 a5) (Cert.Spec.src a1 e) := fun e => by
    rw [takeR_apply _ _ hsrc, RefFeat.featArr_apply]
    unfold Cert.Spec.atNode
    rw [dif_pos (hs e)]
    congr 1
    apply Fin.ext
    show (srcVec a1 (ix1 e)).toInt.toNat = (Cert.Spec.src a1 e).toNat
    rw [srcVec_apply]
    rfl
  have hone : ∀ e : Fin 32000000,
      broadcastInDim S32000000x1 ![] bcast_S_S32000000x1 (constant (F := Ideal) S_ .f32 0x3F800000#32) (ix2 e (0 : Fin 1)) = 1 :=
    fun e => by rw [StableHlo.Predicate.bcast_scalar _ h_S_, constant_apply, Ideal.ofBits_one_f32]
  have hdst : ∀ e : Fin 32000000, (dstVec a1 (ix1 e)).toInt = Cert.Spec.dst a1 e := fun e => by
    rw [dstVec_apply]; rfl
  unfold refOut
  dsimp only
  rw [dotGeneral_unit_apply doD rfl rfl, doD_lhsIdx, doD_rhsIdx, hostDivf_apply, maximumf_apply, scatR_apply, scatR_apply,
    StableHlo.Predicate.bcast_scalar _ h_S_, constant_apply, Ideal.ofBits_one_f32]
  simp only [hmsg, hone, hdst]
  rfl

end Cert.ReferenceIdeal.RefValue

end
-- ==== Proof.PreSrc.lean ====
/-
  The claim's domain, read off the printed precondition: every edge's source, read signed, is a node.
-/
import proofs.«410370_j6923487281238_3_alg».proof.Proof.Gen.Pre_finite_inputs
import proofs.«410370_j6923487281238_3_alg».proof.Proof.Spec
import Idealize.ShloMosaic.Lib.ReduceAll
import Idealize.ShloMosaic.Lib.StableHlo.Predicate
import Idealize.ShloMosaic.Lib.Pipeline.Value

noncomputable section

namespace Cert.PreSrc

open Idealize.ShloMosaic Idealize.ShloMosaic.ValueIdx Cert.Pre_finite_inputs

/-- The scalar shape has one index. -/
instance : Subsingleton S_.Idx := ⟨fun a b => funext fun d => d.elim0⟩

/-- A conjunction of two one-bit arrays that is 1 at an index has both conjuncts 1 there. -/
theorem andi_at {s : Shape} (x y : IVec s 1) (i : s.Idx) (h : andi x y i = 1#1) : x i = 1#1 ∧ y i = 1#1 :=
  IntOp.andi_eq_one.1 h

/-- Row 0 of the edge array, at column e, is the array's entry (0, e). -/
theorem row0_at (E : IVec S2x32000000 32) (e : Fin 32000000) :
    extractStridedSlice S1x32000000 ![0, 0] E Facts.slices_S2x32000000_S1x32000000_0_0 (ix2 (0 : Fin 1) e)
      = E (ix2 (0 : Fin 2) e) := by
  refine extractStridedSlice_apply _ E _ _ _ fun a => ?_
  match a with
  | ⟨0, _⟩ => rfl
  | ⟨1, _⟩ => show e.val = 0 + e.val; omega

/-- Where the precondition is all ones, every entry of row 0 of the edge array is at least 0 and below 1000000. -/
theorem srcInRange (a0 : FVec Ideal S1000000x1 .f32) (a1 : IVec S2x32000000 32) (a2 : FVec Ideal S1x4 .f32)
    (a3 : FVec Ideal S4 .f32) (a4 : FVec Ideal S4x1 .f32) (a5 : FVec Ideal S1 .f32) (a6 : FVec Ideal S1x1 .f32)
    (h : Cert.Pre_finite_inputs.fn (F := Ideal) a0 a1 a2 a3 a4 a5 a6 = fun _ => 1#1) :
    Cert.Spec.SrcInRange a1 := by
  have h0 := congrFun h ValueIdx.ix0
  obtain ⟨h33, h37⟩ := andi_at _ _ _ h0
  obtain ⟨h28, h32⟩ := andi_at _ _ _ h33
  clear h0 h33 h28 h
  intro e
  have hlo := Host.reduce_andi_all _ _ _ _ _ h32 (ix2 (0 : Fin 1) e)
  have hhi := Host.reduce_andi_all _ _ _ _ _ h37 (ix2 (0 : Fin 1) e)
  clear h32 h37
  have hlo' : (0#32 : BitVec 32).toInt ≤ (a1 (ix2 (0 : Fin 2) e)).toInt := by
    rw [← row0_at a1 e]; exact IntOp.cmpi_sge.1 hlo
  have hhi' : (a1 (ix2 (0 : Fin 2) e)).toInt < (1000000#32 : BitVec 32).toInt := by
    rw [← row0_at a1 e]; exact IntOp.cmpi_slt.1 hhi
  rw [show (0#32 : BitVec 32).toInt = 0 from by decide] at hlo'
  rw [show (1000000#32 : BitVec 32).toInt = 1000000 from by decide] at hhi'
  exact ⟨hlo', hhi'⟩

end Cert.PreSrc

end
-- ==== Proof.lean ====
/-
  The certificate of a graph convolution on a million nodes: a two-layer perceptron of each node's scalar input,
  then the mean over each node's incoming edges of the source nodes' features, times one weight.

  The kernel program computes the perceptron in a first grid over the inputs laid out as an 8192 × 128 sheet (padded
  with zeros, the entries past the nodes zeroed again after the perceptron), gathers and scatter-adds on the host over
  the padded length 1048576, divides in a second grid over the same sheet layout, and keeps the first million entries.
  The reference does the same over the unpadded length with two matrix products. Both gather with jnp's take, which
  moves a negative position up by the table's length: the two tables have different lengths, so the programs agree
  only where every edge's source is a node, 0 ≤ source < 1000000, which the precondition states. An edge's target
  needs no such condition: both scatters drop a target outside their table, and the kernel's extra slots past the
  nodes are cut off at the end.

  Under that domain both results are, at node n, the specification's value (Proof/Spec.lean): the kernel's by its
  run (Proof/KerRun.lean: the two grids' sheets from their blocks, the host operations between them) read at a node
  (Proof/KerValue.lean), the reference's by its run (Proof/RefRun.lean) read at a node (Proof/RefValue.lean). The sums
  differ only in the order of their terms, and addition of extended reals is commutative and associative; no step
  needs the inputs finite.
-/
import proofs.«410370_j6923487281238_3_alg».proof.Defs
import proofs.«410370_j6923487281238_3_alg».proof.Proof.Gen.Kernel
import proofs.«410370_j6923487281238_3_alg».proof.Proof.Gen.KernelIdeal
import proofs.«410370_j6923487281238_3_alg».proof.Proof.Gen.ReferenceIdeal
import proofs.«410370_j6923487281238_3_alg».proof.Proof.Gen.Pre_finite_inputs
import proofs.«410370_j6923487281238_3_alg».proof.Proof.FrameKernel
import proofs.«410370_j6923487281238_3_alg».proof.Proof.FrameKernelIdeal
import proofs.«410370_j6923487281238_3_alg».proof.Proof.KerRun
import proofs.«410370_j6923487281238_3_alg».proof.Proof.KerValue
import proofs.«410370_j6923487281238_3_alg».proof.Proof.RefRun
import proofs.«410370_j6923487281238_3_alg».proof.Proof.RefValue
import proofs.«410370_j6923487281238_3_alg».proof.Proof.PreSrc
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.GenP.frame m ρ

/-- The idealized kernel program runs and leaves its arguments as launched. -/
theorem frame_kernelIdeal : Cert.frame_KernelIdeal := fun m ρ _ => Cert.KernelIdeal.GenP.frame m ρ

/-- The idealized reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing: the idealization is the program's own text read on the extended reals. -/
theorem preserves : Cert.preserves_Kernel_KernelIdeal := trivial

/-- From memories agreeing on the arguments, with every edge's source a node, both programs end with the
    specification's result array. -/
theorem algebraic : Cert.algebraic_KernelIdeal_ReferenceIdeal := by
  intro m ρ m' ρ' hpre hagree
  have hs : ∀ c : Dev Cert.KernelIdeal.nD,
      Cert.Spec.SrcInRange (m ((c.tc : Thread Cert.KernelIdeal.nD Cert.KernelIdeal.τ).loc Cert.KernelIdeal.main_arg1)) :=
    fun c => Cert.PreSrc.srcInRange _ _ _ _ _ _ _ (hpre c)
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.KerRun.run (F := Ideal) m ρ)
    funext i
    have hi := Cert.KernelIdeal.KerValue.kerOut_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (hs c) (i 0)
    rw [Cert.Spec.idx_eq i]
    exact hi
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1,
      (hagree c).2.2.2.2.2.1, (hagree c).2.2.2.2.2.2]
    funext i
    have hi := Cert.ReferenceIdeal.RefValue.refOut_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (hs c) (i 0)
    rw [Cert.Spec.idx_eq i]
    exact hi

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
